-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg5 : IVec S800000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_c_6 : IVec S_ 32 := constantI S_ 32 0#32
  let main_v19 : IVec S800000 32 := broadcastInDim S800000 ![] bcast_S_S800000 main_c_6
  let main_v20 : IVec S800000 1 := cmpi .sge main_arg5 main_v19
  let main_c_7 : IVec S_ 32 := constantI S_ 32 50000#32
  let main_v21 : IVec S800000 32 := broadcastInDim S800000 ![] bcast_S_S800000 main_c_7
  let main_v22 : IVec S800000 1 := cmpi .slt main_arg5 main_v21
  let main_v23 : IVec S800000 1 := andi main_v20 main_v22
  let main_c_8 : IVec S_ 1 := constantI S_ 1 1#1
  let main_v24 : IVec S_ 1 := (fun x v => Host.reduce IntOp.andi x v reducesTo_S800000_S_d0 h_S_) main_v23 main_c_8
  let main_v25 : IVec S_ 1 := andi main_v18 main_v24
  main_v25

def fn {F : FTy → Type} [FloatOps F] (main_arg0 : FVec F S50000x128 .f32) (main_arg1 : FVec F S128x128 .f32) (main_arg2 : FVec F S128x128 .f32) (main_arg3 : FVec F S128x128 .f32) (main_arg4 : IVec S800000 32) (main_arg5 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S128x128 : Shape := ⟨2, ![128, 128]⟩
abbrev S800000 : Shape := ⟨1, ![800000]⟩
abbrev S128x384 : Shape := ⟨2, ![128, 384]⟩
abbrev S50000x384 : Shape := ⟨2, ![50000, 384]⟩
abbrev S5000x128 : Shape := ⟨2, ![5000, 128]⟩
abbrev S5000x384 : Shape := ⟨2, ![5000, 384]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩

abbrev nBuf : Space → Nat
  | .hbm => 99
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S800000, .i32⟩
  | .hbm, ⟨5, _⟩ => ⟨S800000, .i32⟩
  | .hbm, ⟨6, _⟩ => ⟨S128x384, .f32⟩
  | .hbm, ⟨7, _⟩ => ⟨S128x384, .bf16⟩
  | .hbm, ⟨8, _⟩ => ⟨S50000x384, .f32⟩
  | .hbm, ⟨9, _⟩ => ⟨S50000x128, .f32⟩
  | .hbm, ⟨10, _⟩ => ⟨S50000x128, .f32⟩
  | .hbm, ⟨11, _⟩ => ⟨S50000x128, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S1, .i32⟩
  | .hbm, ⟨21, _⟩ => ⟨S_, .i32⟩
  | .hbm, ⟨22, _⟩ => ⟨S800000x1, .i32⟩
  | .hbm, ⟨23, _⟩ => ⟨S800000x1, .i1⟩
  | .hbm, ⟨24, _⟩ => ⟨S1x1, .i32⟩
  | .hbm, ⟨25, _⟩ => ⟨S800000x1, .i32⟩
  | .hbm, ⟨26, _⟩ => ⟨S800000x1, .i1⟩
  | .hbm, ⟨27, _⟩ => ⟨S800000x1, .i1⟩
  | .hbm, ⟨28, _⟩ => ⟨S_, .i1⟩
  | .hbm, ⟨29, _⟩ => ⟨S800000, .i1⟩
  | .hbm, ⟨30, _⟩ => ⟨S800000x128, .f32⟩
  | .hbm, ⟨31, _⟩ => ⟨S800000x128, .i1⟩
  | .hbm, ⟨32, _⟩ => ⟨S_, .f32⟩
  | .hbm, ⟨33, _⟩ => ⟨S800000x128, .f32⟩
  | .hbm, ⟨34, _⟩ => ⟨S800000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S1, .i32⟩
  | .hbm, ⟨44, _⟩ => ⟨S_, .i32⟩
  | .hbm, ⟨45, _⟩ => ⟨S800000x1, .i32⟩
  | .hbm, ⟨46, _⟩ => ⟨S800000x1, .i1⟩
  | .hbm, ⟨47, _⟩ => ⟨S1x1, .i32⟩
  | .hbm, ⟨48, _⟩ => ⟨S800000x1, .i32⟩
  | .hbm, ⟨49, _⟩ => ⟨S800000x1, .i1⟩
  | .hbm, ⟨50, _⟩ => ⟨S800000x1, .i1⟩
  | .hbm, ⟨51, _⟩ => ⟨S_, .i1⟩
  | .hbm, ⟨52, _⟩ => ⟨S800000, .i1⟩
  | .hbm, ⟨53, _⟩ => ⟨S800000x128, .f32⟩
  | .hbm, ⟨54, _⟩ => ⟨S800000x128, .i1⟩
  | .hbm, ⟨55, _⟩ => ⟨S_, .f32⟩
  | .hbm, ⟨56, _⟩ => ⟨S800000x128, .f32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S_, .f32⟩
  | .hbm, ⟨63, _⟩ => ⟨S800000, .f32⟩
  | .hbm, ⟨64, _⟩ => ⟨S800000, .i1⟩
  | .hbm, ⟨65, _⟩ => ⟨S_, .f32⟩
  | .hbm, ⟨66, _⟩ => ⟨S800000, .f32⟩
  | .hbm, ⟨67, _⟩ => ⟨S800000, .f32⟩
  | .hbm, ⟨68, _⟩ => ⟨S800000, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S1, .i32⟩
  | .hbm, ⟨78, _⟩ => ⟨S_, .i32⟩
  | .hbm, ⟨79, _⟩ => ⟨S800000x1, .i32⟩
  | .hbm, ⟨80, _⟩ => ⟨S800000x1, .i1⟩
  | .hbm, ⟨81, _⟩ => ⟨S1x1, .i32⟩
  | .hbm, ⟨82, _⟩ => ⟨S800000x1, .i32⟩
  | .hbm, ⟨83, _⟩ => ⟨S800000x1, .i1⟩
  | .hbm, ⟨84, _⟩ => ⟨S800000x1, .i1⟩
  | .hbm, ⟨85, _⟩ => ⟨S_, .i1⟩
  | .hbm, ⟨86, _⟩ => ⟨S800000, .i1⟩
  | .hbm, ⟨87, _⟩ => ⟨S800000x128, .f32⟩
  | .hbm, ⟨88, _⟩ => ⟨S800000x128, .i1⟩
  | .hbm, ⟨89, _⟩ => ⟨S_, .f32⟩
  | .hbm, ⟨90, _⟩ => ⟨S800000x128, .f32⟩
  | .hbm, ⟨91, _⟩ => ⟨S800000x128, .f32⟩
  | .hbm, ⟨92, _⟩ => ⟨S800000x1, .f32⟩
  | .hbm, ⟨93, _⟩ => ⟨S800000x128, .f32⟩
  | .hbm, ⟨94, _⟩ => ⟨S800000x128, .f32⟩
  | .hbm, ⟨95, _⟩ => ⟨S_, .f32⟩
  | .hbm, ⟨96, _⟩ => ⟨S50000x128, .f32⟩
  | .hbm, ⟨97, _⟩ => ⟨S800000x1, .i32⟩
  | .hbm, ⟨98, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x384, .bf16⟩
  | .local _ .vmem, ⟨3, _⟩ => ⟨S5000x384, .f32⟩
  | .local _ .vmem, ⟨4, _⟩ => ⟨S5000x384, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v6 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v7 : Ref sig .tc := ⟨.hbm, 57, rfl⟩
abbrev main_v8 : Ref sig .tc := ⟨.hbm, 58, rfl⟩
abbrev main_cst : Ref sig .tc := ⟨.hbm, 59, rfl⟩
abbrev main_v9 : Ref sig .tc := ⟨.hbm, 60, rfl⟩
abbrev main_cst_0 : Ref sig .tc := ⟨.hbm, 61, rfl⟩
abbrev main_call2_cst : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v10 : Ref sig .tc := ⟨.hbm, 68, rfl⟩
abbrev main_call3_c : Ref sig .tc := ⟨.hbm, 69, rfl⟩
abbrev main_call3_v0 : Ref sig .tc := ⟨.hbm, 70, rfl⟩
abbrev main_call3_v1 : Ref sig .tc := ⟨.hbm, 71, rfl⟩
abbrev main_call3_c_0 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_c_1 : Ref sig .tc := ⟨.hbm, 77, rfl⟩
abbrev main_call3_c_2 : Ref sig .tc := ⟨.hbm, 78, rfl⟩
abbrev main_call3_v6 : Ref sig .tc := ⟨.hbm, 79, rfl⟩
abbrev main_call3_v7 : Ref sig .tc := ⟨.hbm, 80, rfl⟩
abbrev main_call3_v8 : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_c_3 : Ref sig .tc := ⟨.hbm, 85, rfl⟩
abbrev main_call3_v12 : Ref sig .tc := ⟨.hbm, 86, rfl⟩
abbrev main_call3_v13 : Ref sig .tc := ⟨.hbm, 87, rfl⟩
abbrev main_call3_v14 : Ref sig .tc := ⟨.hbm, 88, rfl⟩
abbrev main_call3_cst : Ref sig .tc := ⟨.hbm, 89, rfl⟩
abbrev main_call3_v15 : Ref sig .tc := ⟨.hbm, 90, rfl⟩
abbrev main_v11 : Ref sig .tc := ⟨.hbm, 91, rfl⟩
abbrev main_v12 : Ref sig .tc := ⟨.hbm, 92, rfl⟩
abbrev main_v13 : Ref sig .tc := ⟨.hbm, 93, rfl⟩
abbrev main_v14 : Ref sig .tc := ⟨.hbm, 94, rfl⟩
abbrev main_cst_1 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S128x128_S128x128_S128x128_S128x384_d1 : Shape.Concatenates [S128x128, S128x128, S128x128] S128x384 1
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S5000x384_S5000x384_0_0 : ∀ a, (![0, 0] : Fin 2 → Nat) a + S5000x384.size a ≤ S5000x384.size a
  h_S5000x384 : 0 < S5000x384.numel
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  reducesTo_S800000x128_S800000_d1 : S800000x128.ReducesTo [1] S800000
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S5000x128_S128x384_S5000x384_1_0_0_1_n_n_wf : DotDims.WF S5000x128 S128x384 S5000x384 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .bf16 = 32 ∨ (Rect.block (s := S128x384) S128x384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x384.size a ≤ S50000x384.size a
  hwx0_2 : ∀ i : grid0.Coords, EltTy.bits .f32 = 32 ∨ (Rect.block (s := S50000x384) S5000x384.size (cc0_transform_2 i) (hinb0_2 i)).WholeWords (EltTy.packing .f32)

variable [Facts₀]

def dot_S5000x128_S128x384_S5000x384_1_0_0_1_n_n : DotDims S5000x128 S128x384 S5000x384 where
  lhsContracting := [1]
  rhsContracting := [0]
  lhsNonContracting := [0]
  rhsNonContracting := [1]
  lhsBatch := []
  rhsBatch := []
  wf := dot_S5000x128_S128x384_S5000x384_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S800000 : Shape := ⟨1, ![800000]⟩
abbrev S_ : Shape := ⟨0, ![]⟩
abbrev S800000x1 : Shape := ⟨2, ![800000, 1]⟩
abbrev S800000x128 : Shape := ⟨2, ![800000, 128]⟩

abbrev nBuf : Space → Nat
  | .hbm => 54
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S800000, .i32⟩
  | .hbm, ⟨5, _⟩ => ⟨S800000, .i32⟩
  | .hbm, ⟨6, _⟩ => ⟨S50000x128, .f32⟩
  | .hbm, ⟨7, _⟩ => ⟨S50000x128, .f32⟩
  | .hbm, ⟨8, _⟩ => ⟨S50000x128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S_, .f32⟩
  | .hbm, ⟨32, _⟩ => ⟨S800000, .f32⟩
  | .hbm, ⟨33, _⟩ => ⟨S800000, .i1⟩
  | .hbm, ⟨34, _⟩ => ⟨S_, .f32⟩
  | .hbm, ⟨35, _⟩ => ⟨S800000, .f32⟩
  | .hbm, ⟨36, _⟩ => ⟨S800000, .f32⟩
  | .hbm, ⟨37, _⟩ => ⟨S800000, .f32⟩
  | .hbm, ⟨38, _⟩ => ⟨S800000x1, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S800000x128, .f32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_cst_3 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  reducesTo_S800000x128_S800000_d1 : S800000x128.ReducesTo [1] S800000
  h_S_ : 0 < S_.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KFrame.lean ====
import proofs.«409221_j3023656976834_2_alg».proof.Proof.Gen.Kernel.Launch
import proofs.«409221_j3023656976834_2_alg».proof.Proof.Gen.Kernel.Skeleton
import proofs.«409221_j3023656976834_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! # The frame run of the kernel program

The program is: two host lines (the three weight matrices concatenated, then rounded to bf16), ONE pipelined region
(a grid of 10 points; per point a block of 5000 rows of the input, the whole weight matrix, a block of 5000 rows of
the product), and 90 host lines after it in seven stretches (three slices, three gathers, the edge score, the leaky
rectifier, the scatter-add). This module runs it: the region by the pipeline's frame run, the later lines as a tail of
stretches that touch the pipeline's arrays and the bypassing buffers only and write no array of the pipeline. -/

-- membership in a rectangle of production extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- The host stretches that follow the region, in order. -/
abbrev tailOps : List (List (HloOp τ sig (Elt F))) := [hostOps1, hostOps1_1, hostOps1_2, hostOps1_3, hostOps1_4, hostOps1_5, hostOps1_6]

/-- The core's TensorCore buffer contents when the region is entered, as a valuation: after the two host lines before
    the region (the concatenation and its rounding). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main around the region: the two host lines before it, the region, the seven stretches after it; it reduces to the
    region CONTINUED BY the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) := by
  exact Pipeline.hmain_around cfgs 0 defs₀ 𝒱₀ m main [hostOps0] tailOps (by simp only [List.Forall]; exact hostOps0_sub)
    (by simp only [List.Forall]; exact hostOps0_fresh) main_chain

/-- Every later line touches the pipeline's arrays and the bypassing buffers only: each operation's buffers are
    unscoped TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
/-- And none writes an array of the pipeline: each writes its own result buffer only, which is none of the input, the
    rounded weights and the product. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_3, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_4, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_5, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_6, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- Neither host line before the region writes argument 0: the region finds it as launched. -/
theorem V_main_arg0 (c : Dev nD) : V m c main_arg0 = m ((c : Thread nD τ).loc main_arg0) := by
  exact StableHlo.after_of_forall_not_mem (b := Proc.devRef .tc _) _ _ (List.forall_iff_forall_mem.mp (by
    simp only [hostOps0, List.flatten_cons, List.flatten_nil, List.append_nil, List.cons_append, List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Neither host line before the region writes argument 1: the region finds it as launched. -/
theorem V_main_arg1 (c : Dev nD) : V m c main_arg1 = m ((c : Thread nD τ).loc main_arg1) := by
  exact StableHlo.after_of_forall_not_mem (b := Proc.devRef .tc _) _ _ (List.forall_iff_forall_mem.mp (by
    simp only [hostOps0, List.flatten_cons, List.flatten_nil, List.append_nil, List.cons_append, List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Neither host line before the region writes argument 2: the region finds it as launched. -/
theorem V_main_arg2 (c : Dev nD) : V m c main_arg2 = m ((c : Thread nD τ).loc main_arg2) := by
  exact StableHlo.after_of_forall_not_mem (b := Proc.devRef .tc _) _ _ (List.forall_iff_forall_mem.mp (by
    simp only [hostOps0, List.flatten_cons, List.flatten_nil, List.append_nil, List.cons_append, List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Neither host line before the region writes argument 3: the region finds it as launched. -/
theorem V_main_arg3 (c : Dev nD) : V m c main_arg3 = m ((c : Thread nD τ).loc main_arg3) := by
  exact StableHlo.after_of_forall_not_mem (b := Proc.devRef .tc _) _ _ (List.forall_iff_forall_mem.mp (by
    simp only [hostOps0, List.flatten_cons, List.flatten_nil, List.append_nil, List.cons_append, List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Neither host line before the region writes argument 4: the region finds it as launched. -/
theorem V_main_arg4 (c : Dev nD) : V m c main_arg4 = m ((c : Thread nD τ).loc main_arg4) := by
  exact StableHlo.after_of_forall_not_mem (b := Proc.devRef .tc _) _ _ (List.forall_iff_forall_mem.mp (by
    simp only [hostOps0, List.flatten_cons, List.flatten_nil, List.append_nil, List.cons_append, List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Neither host line before the region writes argument 5: the region finds it as launched. -/
theorem V_main_arg5 (c : Dev nD) : V m c main_arg5 = m ((c : Thread nD τ).loc main_arg5) := by
  exact StableHlo.after_of_forall_not_mem (b := Proc.devRef .tc _) _ _ (List.forall_iff_forall_mem.mp (by
    simp only [hostOps0, List.flatten_cons, List.flatten_nil, List.append_nil, List.cons_append, List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 0 is the array of window 0, an input window: after the region it holds what it held at the entry, and
    no later line writes it. (For proof data whose window-0 array is the region-entry contents.) -/
theorem W_main_arg0 (dats : (p : Fin 1) → (c : Dev nD) → Dat τ (Elt F) Unit ℕ (UR sig nD τ) ℕ (cfgs p) c) (c : Dev nD)
    (hA : (dats 0 c).A 0 = V m c (Pipeline.arrRef spec0 0)) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact (Pipeline.withArrays_arr spec0 launch0.win.arr_inj c (V0 m c) _ 0).trans
    (((dats 0 c).arrAt_in 0 rfl _).trans (hA.trans (V_main_arg0 m c)))
/-- No later line writes argument 1, and it is no array of the pipeline: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No later line writes argument 2, and it is no array of the pipeline: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No later line writes argument 3, and it is no array of the pipeline: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No later line writes argument 4, and it is no array of the pipeline: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No later line writes argument 5, and it is no array of the pipeline: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (List.forall_iff_forall_mem.mp (by
      simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved), for any proof data whose array is the region-entry contents and whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t := by
  exact (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, the
    block index has not moved), for any proof data whose array is the region-entry contents and whose body leaves the
    block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t := by
  exact (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S5000x128 := Rect.unit (s := S5000x128) ![0, 0] S5000x128.size inb_S5000x128_S5000x128_0_0
abbrev r0_1 : Rect S128x384 := Rect.unit (s := S128x384) ![0, 0] S128x384.size inb_S128x384_S128x384_0_0
abbrev r0_2 : Rect S5000x384 := Rect.unit (s := S5000x384) ![0, 0] S5000x384.size inb_S5000x384_S5000x384_0_0

/-! ## What the body leaves in the output window's buffer -/

/-- Window 2's staging buffer after the body, from the input windows' blocks: its one store, of the product of the
    rounded input block with the weight block. -/
def out0_2 (x0 : Vec F S5000x128 .f32) (x1 : Vec F S128x384 .bf16) : Vec F S5000x384 .f32 :=
  View.canon [⟨r0_2, k0_pay1 (View.ld x0 r0_0) (View.ld x1 r0_1)⟩]

/-- The store is of the whole buffer, so it covers it. -/
theorem cover0_2 (p0 : Vec F S5000x384 .f32) (y : S5000x384.Idx) :
    ∃ pc ∈ ([⟨r0_2, p0⟩] : List (View.Piece (Elt F) S5000x384 .f32)), y ∈ pc.1.set := by
  exact View.cover_of_tiled [⟨r0_2, p0⟩] S5000x384.size (by rfl) y

/-! ## The body's triple -/

set_option maxHeartbeats 1000000 in
/-- The kernel body on whole staging memrefs, the inputs' at contents `x0`, `x1` and the output's at anything, runs to
    the continuation holding the inputs' as they were and the output's at `out0_2 x0 x1`: it loads the two inputs,
    loads the output buffer once (the value is not used) and stores the product over the whole output buffer. -/
theorem sound_kernel (c : Dev nD) (E : Set ℕ) (i : grid0.Coords) (arg1 : Memref sig .tc .vmem S5000x128 .f32) (harg1 : arg1.IsWhole) (arg2 : Memref sig .tc .vmem S128x384 .bf16) (harg2 : arg2.IsWhole) (arg3 : Memref sig .tc .vmem S5000x384 .f32) (harg3 : arg3.IsWhole)
    (x0 : Vec F S5000x128 .f32) (x1 : Vec F S128x384 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them; after the body at point `t`
    each input's buffer at its block and the output's at the product of the two blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (the definition projected; the fold over the host prefix
    is never unfolded to check it). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on the
    TensorCore terminates, and every final state has every array of the pipeline at what the proof data compute (the two
    inputs as found, the product array block by block) and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME: the program runs to the end and its six argument arrays end as launched — argument 0, the array of an
    input window, by the pipeline's account of its arrays; the other five, which no window stages, by the later lines'
    account of the bypassing buffers. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩) (run_main m ρ)

/-- info: 'Cert.Kernel.Hand.frame' depends on axioms: [propext, Classical.choice, Quot.sound] -/
#guard_msgs in #print axioms frame

end Cert.Kernel.Hand

end
-- ==== Proof.KIFrame.lean ====
import proofs.«409221_j3023656976834_2_alg».proof.Proof.Gen.KernelIdeal.Launch
import proofs.«409221_j3023656976834_2_alg».proof.Proof.Gen.KernelIdeal.Skeleton
import proofs.«409221_j3023656976834_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! # The frame run of the idealized kernel program

The program is: two host lines (the three weight matrices concatenated, then rounded to bf16), ONE pipelined region
(a grid of 10 points; per point a block of 5000 rows of the input, the whole weight matrix, a block of 5000 rows of
the product), and 90 host lines after it in seven stretches (three slices, three gathers, the edge score, the leaky
rectifier, the scatter-add). This module runs it: the region by the pipeline's frame run, the later lines as a tail of
stretches that touch the pipeline's arrays and the bypassing buffers only and write no array of the pipeline. -/

-- membership in a rectangle of production extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- The host stretches that follow the region, in order. -/
abbrev tailOps : List (List (HloOp τ sig (Elt F))) := [hostOps1, hostOps1_1, hostOps1_2, hostOps1_3, hostOps1_4, hostOps1_5, hostOps1_6]

/-- The core's TensorCore buffer contents when the region is entered, as a valuation: after the two host lines before
    the region (the concatenation and its rounding). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main around the region: the two host lines before it, the region, the seven stretches after it; it reduces to the
    region CONTINUED BY the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) := by
  exact Pipeline.hmain_around cfgs 0 defs₀ 𝒱₀ m main [hostOps0] tailOps (by simp only [List.Forall]; exact hostOps0_sub)
    (by simp only [List.Forall]; exact hostOps0_fresh) main_chain

/-- Every later line touches the pipeline's arrays and the bypassing buffers only: each operation's buffers are
    unscoped TensorCore references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
/-- And none writes an array of the pipeline: each writes its own result buffer only, which is none of the input, the
    rounded weights and the product. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_3, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_4, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_5, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_6, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- Neither host line before the region writes argument 0: the region finds it as launched. -/
theorem V_main_arg0 (c : Dev nD) : V m c main_arg0 = m ((c : Thread nD τ).loc main_arg0) := by
  exact StableHlo.after_of_forall_not_mem (b := Proc.devRef .tc _) _ _ (List.forall_iff_forall_mem.mp (by
    simp only [hostOps0, List.flatten_cons, List.flatten_nil, List.append_nil, List.cons_append, List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Neither host line before the region writes argument 1: the region finds it as launched. -/
theorem V_main_arg1 (c : Dev nD) : V m c main_arg1 = m ((c : Thread nD τ).loc main_arg1) := by
  exact StableHlo.after_of_forall_not_mem (b := Proc.devRef .tc _) _ _ (List.forall_iff_forall_mem.mp (by
    simp only [hostOps0, List.flatten_cons, List.flatten_nil, List.append_nil, List.cons_append, List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Neither host line before the region writes argument 2: the region finds it as launched. -/
theorem V_main_arg2 (c : Dev nD) : V m c main_arg2 = m ((c : Thread nD τ).loc main_arg2) := by
  exact StableHlo.after_of_forall_not_mem (b := Proc.devRef .tc _) _ _ (List.forall_iff_forall_mem.mp (by
    simp only [hostOps0, List.flatten_cons, List.flatten_nil, List.append_nil, List.cons_append, List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Neither host line before the region writes argument 3: the region finds it as launched. -/
theorem V_main_arg3 (c : Dev nD) : V m c main_arg3 = m ((c : Thread nD τ).loc main_arg3) := by
  exact StableHlo.after_of_forall_not_mem (b := Proc.devRef .tc _) _ _ (List.forall_iff_forall_mem.mp (by
    simp only [hostOps0, List.flatten_cons, List.flatten_nil, List.append_nil, List.cons_append, List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Neither host line before the region writes argument 4: the region finds it as launched. -/
theorem V_main_arg4 (c : Dev nD) : V m c main_arg4 = m ((c : Thread nD τ).loc main_arg4) := by
  exact StableHlo.after_of_forall_not_mem (b := Proc.devRef .tc _) _ _ (List.forall_iff_forall_mem.mp (by
    simp only [hostOps0, List.flatten_cons, List.flatten_nil, List.append_nil, List.cons_append, List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- Neither host line before the region writes argument 5: the region finds it as launched. -/
theorem V_main_arg5 (c : Dev nD) : V m c main_arg5 = m ((c : Thread nD τ).loc main_arg5) := by
  exact StableHlo.after_of_forall_not_mem (b := Proc.devRef .tc _) _ _ (List.forall_iff_forall_mem.mp (by
    simp only [hostOps0, List.flatten_cons, List.flatten_nil, List.append_nil, List.cons_append, List.nil_append, List.Forall, StableHlo.nary_writes, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument 0 is the array of window 0, an input window: after the region it holds what it held at the entry, and
    no later line writes it. (For proof data whose window-0 array is the region-entry contents.) -/
theorem W_main_arg0 (dats : (p : Fin 1) → (c : Dev nD) → Dat τ (Elt F) Unit ℕ (UR sig nD τ) ℕ (cfgs p) c) (c : Dev nD)
    (hA : (dats 0 c).A 0 = V m c (Pipeline.arrRef spec0 0)) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  exact (Pipeline.withArrays_arr spec0 launch0.win.arr_inj c (V0 m c) _ 0).trans
    (((dats 0 c).arrAt_in 0 rfl _).trans (hA.trans (V_main_arg0 m c)))
/-- No later line writes argument 1, and it is no array of the pipeline: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No later line writes argument 2, and it is no array of the pipeline: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No later line writes argument 3, and it is no array of the pipeline: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No later line writes argument 4, and it is no array of the pipeline: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No later line writes argument 5, and it is no array of the pipeline: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (List.forall_iff_forall_mem.mp (by
      simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved), for any proof data whose array is the region-entry contents and whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t := by
  exact (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, the
    block index has not moved), for any proof data whose array is the region-entry contents and whose body leaves the
    block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t := by
  exact (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S5000x128 := Rect.unit (s := S5000x128) ![0, 0] S5000x128.size inb_S5000x128_S5000x128_0_0
abbrev r0_1 : Rect S128x384 := Rect.unit (s := S128x384) ![0, 0] S128x384.size inb_S128x384_S128x384_0_0
abbrev r0_2 : Rect S5000x384 := Rect.unit (s := S5000x384) ![0, 0] S5000x384.size inb_S5000x384_S5000x384_0_0

/-! ## What the body leaves in the output window's buffer -/

/-- Window 2's staging buffer after the body, from the input windows' blocks: its one store, of the product of the
    rounded input block with the weight block. -/
def out0_2 (x0 : Vec F S5000x128 .f32) (x1 : Vec F S128x384 .bf16) : Vec F S5000x384 .f32 :=
  View.canon [⟨r0_2, k0_pay1 (View.ld x0 r0_0) (View.ld x1 r0_1)⟩]

/-- The store is of the whole buffer, so it covers it. -/
theorem cover0_2 (p0 : Vec F S5000x384 .f32) (y : S5000x384.Idx) :
    ∃ pc ∈ ([⟨r0_2, p0⟩] : List (View.Piece (Elt F) S5000x384 .f32)), y ∈ pc.1.set := by
  exact View.cover_of_tiled [⟨r0_2, p0⟩] S5000x384.size (by rfl) y

/-! ## The body's triple -/

set_option maxHeartbeats 1000000 in
/-- The kernel body on whole staging memrefs, the inputs' at contents `x0`, `x1` and the output's at anything, runs to
    the continuation holding the inputs' as they were and the output's at `out0_2 x0 x1`: it loads the two inputs,
    loads the output buffer once (the value is not used) and stores the product over the whole output buffer. -/
theorem sound_kernel (c : Dev nD) (E : Set ℕ) (i : grid0.Coords) (arg1 : Memref sig .tc .vmem S5000x128 .f32) (harg1 : arg1.IsWhole) (arg2 : Memref sig .tc .vmem S128x384 .bf16) (harg2 : arg2.IsWhole) (arg3 : Memref sig .tc .vmem S5000x384 .f32) (harg3 : arg3.IsWhole)
    (x0 : Vec F S5000x128 .f32) (x1 : Vec F S128x384 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them; after the body at point `t`
    each input's buffer at its block and the output's at the product of the two blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (the definition projected; the fold over the host prefix
    is never unfolded to check it). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on the
    TensorCore terminates, and every final state has every array of the pipeline at what the proof data compute (the two
    inputs as found, the product array block by block) and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME: the program runs to the end and its six argument arrays end as launched — argument 0, the array of an
    input window, by the pipeline's account of its arrays; the other five, which no window stages, by the later lines'
    account of the bypassing buffers. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩) (run_main m ρ)

/-- info: 'Cert.KernelIdeal.Hand.frame' depends on axioms: [propext, Classical.choice, Quot.sound] -/
#guard_msgs in #print axioms frame

end Cert.KernelIdeal.Hand

end
-- ==== Proof.KIStages.lean ====
/-
  The idealized kernel program's host lines after its one matrix product, as functions of arrays.

  After the product Y = X · [W | W_r | W_l] (rows of X against the packed columns) the program cuts Y
  into its three column bands comb, h_r, h_l, and then, per edge e = (src e, dst e):
    score e   = leaky (Σ_k h_l[src e, k] · h_r[dst e, k])        (leaky x = x for x ≥ 0, 0.2·x otherwise)
    msg  e    = score e · comb[dst e, ·]
    out  r    = Σ_{e : src e = r} msg e                           (rows outside [0, 50000) receive nothing)
  A row read `h[idx e]` is jnp.take's: a negative index wraps once (idx + 50000), the wrapped index is
  clamped for the read itself, and a row whose wrapped index is outside [0, 49999] is replaced by a
  fill value. Each definition below is one stretch of those lines, spelt with the printed operations.
-/
import proofs.«409221_j3023656976834_2_alg».proof.Proof.Gen.KernelIdeal

noncomputable section

namespace Cert.KernelIdeal.Hand

open Cert.KernelIdeal Idealize.ShloMosaic
open Cert.KernelIdeal.Facts₀

variable {F : FTy → Type} [FloatOps F]

/-- An index vector with its negative entries wrapped once (idx + 50000 where idx < 0), as a column. -/
def nrm (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- Per edge: is the wrapped index inside [0, 49999]? -/
def inRange (idx : IVec S800000 32) : IVec S800000 1 :=
  Host.reduce IntOp.andi
    (andi (cmpi .sge (nrm idx) (broadcastInDim S800000x1 ![] bcast_S_S800000x1 (constantI S_ 32 0#32)))
      (cmpi .sle (nrm idx) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows of `h` the wrapped indices name (the read itself clamps). -/
def rows (h : FVec F S50000x128 .f32) (idx : IVec S800000 32) : FVec F S800000x128 .f32 :=
  Host.gather gather_S50000x128_S800000x1_S800000x128_1_0_n_n_0_1_1128 h (nrm idx)

/-- jnp.take along axis 0: the named rows, a fill value where the wrapped index is out of range. -/
def take (h : FVec F S50000x128 .f32) (idx : IVec S800000 32) : FVec F S800000x128 .f32 :=
  select (broadcastInDim S800000x128 ![0] bcast_S800000_S800000x128_0 (inRange idx))
    (rows h idx)
    (broadcastInDim S800000x128 ![] bcast_S_S800000x128 (constant S_ .f32 0x7FC00000#32))

/-- The leaky rectifier with slope `s`: x where x ≥ 0, s·x elsewhere. -/
def leaky (v : FVec F S800000 .f32) (s : FVec F S_ .f32) : FVec F S800000 .f32 :=
  select (cmpf .oge v (broadcastInDim S800000 ![] bcast_S_S800000 (constant S_ .f32 0x00000000#32)))
    v (mulf (broadcastInDim S800000 ![] bcast_S_S800000 (id s)) v)

/-- The raw edge scores: the row sums of the product of two row arrays. -/
def dots (a b : FVec F S800000x128 .f32) : FVec F S800000 .f32 :=
  Host.reduceAdd (mulf a b) (constant S_ .f32 0x00000000#32) reducesTo_S800000x128_S800000_d1 h_S_

/-- The messages: each edge's score times its row. -/
def msgs (sc : FVec F S800000 .f32) (r : FVec F S800000x128 .f32) : FVec F S800000x128 .f32 :=
  mulf (broadcastInDim S800000x128 ![0, 1] bcast_S800000x1_S800000x128_0_1
    (broadcastInDim S800000x1 ![0] bcast_S800000_S800000x1_0 sc)) r

/-- The sums of the messages by source row, from zero. -/
def agg (src : IVec S800000 32) (u : FVec F S800000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 src) u

/-- The three column bands of the product. -/
def band0 (y : FVec F S50000x384 .f32) : FVec F S50000x128 .f32 := extractStridedSlice S50000x128 ![0, 0] y slices_S50000x384_S50000x128_0_0
def band1 (y : FVec F S50000x384 .f32) : FVec F S50000x128 .f32 := extractStridedSlice S50000x128 ![0, 128] y slices_S50000x384_S50000x128_0_128
def band2 (y : FVec F S50000x384 .f32) : FVec F S50000x128 .f32 := extractStridedSlice S50000x128 ![0, 256] y slices_S50000x384_S50000x128_0_256

/-- Everything after the product, as one function of the product and the two index vectors. -/
def tail (y : FVec F S50000x384 .f32) (src dst : IVec S800000 32) : FVec F S50000x128 .f32 :=
  agg src (msgs (leaky (dots (take (band2 y) src) (take (band1 y) dst)) (constant S_ .f32 0x3E4CCCCD#32))
    (take (band0 y) dst))

end Cert.KernelIdeal.Hand

end
-- ==== Proof.KITail.lean ====
/-
  What the host lines after the matrix product compute, read off the lines themselves.

  The lines come in seven stretches (the three column bands; the two row reads for the score; the
  row sums; the rectifier; the third row read; the messages and their sums by source row). Each
  stretch is read once, from arbitrary buffer contents: the buffer it produces holds the stretch's
  function of the buffers it reads, and every buffer it does not write keeps its contents. Chained,
  the last buffer holds `tail` of the product and the two index vectors.
-/
import proofs.«409221_j3023656976834_2_alg».proof.Proof.Gen.KernelIdeal.Launch
import proofs.«409221_j3023656976834_2_alg».proof.Proof.KIStages
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The buffers that stretch 1 writes. -/
abbrev ops1_W : List (Ref sig .tc) := [main_v3, main_v4, main_v5]
set_option maxRecDepth 8192 in
theorem ops1_writes : (hostOps1 : List (HloOp τ sig (Elt F))).Forall fun op => op.writes ⊆ (ops1_W.map (Proc.devRef (τ := τ) .tc)).toFinset := by
  simp only [hostOps1, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- The buffers that stretch 1_1 writes. -/
abbrev ops1_1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v6]
set_option maxRecDepth 8192 in
theorem ops1_1_writes : (hostOps1_1 : List (HloOp τ sig (Elt F))).Forall fun op => op.writes ⊆ (ops1_1_W.map (Proc.devRef (τ := τ) .tc)).toFinset := by
  simp only [hostOps1_1, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- The buffers that stretch 1_2 writes. -/
abbrev ops1_2_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v7]
set_option maxRecDepth 8192 in
theorem ops1_2_writes : (hostOps1_2 : List (HloOp τ sig (Elt F))).Forall fun op => op.writes ⊆ (ops1_2_W.map (Proc.devRef (τ := τ) .tc)).toFinset := by
  simp only [hostOps1_2, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- The buffers that stretch 1_3 writes. -/
abbrev ops1_3_W : List (Ref sig .tc) := [main_v8, main_cst, main_v9, main_cst_0]
set_option maxRecDepth 8192 in
theorem ops1_3_writes : (hostOps1_3 : List (HloOp τ sig (Elt F))).Forall fun op => op.writes ⊆ (ops1_3_W.map (Proc.devRef (τ := τ) .tc)).toFinset := by
  simp only [hostOps1_3, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- The buffers that stretch 1_4 writes. -/
abbrev ops1_4_W : List (Ref sig .tc) := [main_call2_cst, main_call2_v0, main_call2_v1, main_call2_v2, main_call2_v3, main_call2_v4, main_v10]
set_option maxRecDepth 8192 in
theorem ops1_4_writes : (hostOps1_4 : List (HloOp τ sig (Elt F))).Forall fun op => op.writes ⊆ (ops1_4_W.map (Proc.devRef (τ := τ) .tc)).toFinset := by
  simp only [hostOps1_4, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- The buffers that stretch 1_5 writes. -/
abbrev ops1_5_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v11]
set_option maxRecDepth 8192 in
theorem ops1_5_writes : (hostOps1_5 : List (HloOp τ sig (Elt F))).Forall fun op => op.writes ⊆ (ops1_5_W.map (Proc.devRef (τ := τ) .tc)).toFinset := by
  simp only [hostOps1_5, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

/-- The buffers that stretch 1_6 writes. -/
abbrev ops1_6_W : List (Ref sig .tc) := [main_v12, main_v13, main_v14, main_cst_1, main_v15, main_v16, main_v17]
set_option maxRecDepth 8192 in
theorem ops1_6_writes : (hostOps1_6 : List (HloOp τ sig (Elt F))).Forall fun op => op.writes ⊆ (ops1_6_W.map (Proc.devRef (τ := τ) .tc)).toFinset := by
  simp only [hostOps1_6, List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

variable (W : Valuation τ sig (Elt F))

/-! ## Each stretch, from arbitrary contents -/

theorem s1_v3 : after hostOps1 W (Proc.devRef .tc main_v3) = band0 (W (Proc.devRef .tc main_v2)) := by
  simp only [hostOps1]; after_results_simp; rfl
theorem s1_v4 : after hostOps1 W (Proc.devRef .tc main_v4) = band1 (W (Proc.devRef .tc main_v2)) := by
  simp only [hostOps1]; after_results_simp; rfl
theorem s1_v5 : after hostOps1 W (Proc.devRef .tc main_v5) = band2 (W (Proc.devRef .tc main_v2)) := by
  simp only [hostOps1]; after_results_simp; rfl

set_option maxRecDepth 8192 in
set_option maxHeartbeats 2000000 in
theorem s2_v6 : after hostOps1_1 W (Proc.devRef .tc main_v6) = take (W (Proc.devRef .tc main_v5)) (W (Proc.devRef .tc main_arg4)) := by
  simp only [hostOps1_1]; after_results_simp
  (try simp only [TRef.ofBuf, TRef.toBuf, cast_eq]) <;> rfl

set_option maxRecDepth 8192 in
set_option maxHeartbeats 2000000 in
theorem s3_v7 : after hostOps1_2 W (Proc.devRef .tc main_v7) = take (W (Proc.devRef .tc main_v4)) (W (Proc.devRef .tc main_arg5)) := by
  simp only [hostOps1_2]; after_results_simp
  (try simp only [TRef.ofBuf, TRef.toBuf, cast_eq]) <;> rfl

theorem s4_v9 : after hostOps1_3 W (Proc.devRef .tc main_v9) = dots (W (Proc.devRef .tc main_v6)) (W (Proc.devRef .tc main_v7)) := by
  simp only [hostOps1_3]; after_results_simp; rfl
theorem s4_cst0 : after hostOps1_3 W (Proc.devRef .tc main_cst_0) = constant S_ .f32 0x3E4CCCCD#32 := by
  simp only [hostOps1_3]; after_results_simp

set_option maxRecDepth 8192 in
theorem s5_v10 : after hostOps1_4 W (Proc.devRef .tc main_v10) = leaky (W (Proc.devRef .tc main_v9)) (W (Proc.devRef .tc main_cst_0)) := by
  simp only [hostOps1_4]; after_results_simp
  (try simp only [TRef.ofBuf, TRef.toBuf, cast_eq]) <;> rfl

set_option maxRecDepth 8192 in
set_option maxHeartbeats 2000000 in
theorem s6_v11 : after hostOps1_5 W (Proc.devRef .tc main_v11) = take (W (Proc.devRef .tc main_v3)) (W (Proc.devRef .tc main_arg5)) := by
  simp only [hostOps1_5]; after_results_simp
  (try simp only [TRef.ofBuf, TRef.toBuf, cast_eq]) <;> rfl

theorem s7_v17 : after hostOps1_6 W (Proc.devRef .tc main_v17) = agg (W (Proc.devRef .tc main_arg4)) (msgs (W (Proc.devRef .tc main_v10)) (W (Proc.devRef .tc main_v11))) := by
  simp only [hostOps1_6]; after_results_simp; rfl

end Cert.KernelIdeal.Hand

end
-- ==== Proof.KIValue.lean ====
import proofs.«409221_j3023656976834_2_alg».proof.Proof.KIFrame
import proofs.«409221_j3023656976834_2_alg».proof.Proof.KITail
import proofs.«409221_j3023656976834_2_alg».proof.Proof.KIStages
import Idealize.ShloMosaic.Lib.StableHlo.Run

/-! # The result of the idealized kernel program

After the region the product array holds the pipeline's product, block by block; the seven later stretches then turn it
and the two index vectors into the result. Here the stretches are chained — each reads buffers the earlier ones left
and every buffer a stretch does not write keeps its contents through it — so that the result buffer holds `tail` of the
product array and the two index vectors; and the program's run is restated with that value beside the unchanged
arguments. -/

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat)

variable {F : FTy → Type} [FloatOps F]

/-! ## The stretches chained, from arbitrary contents -/

section Chain

variable (W : Valuation τ sig (Elt F))

/-- The buffer contents after the first 1 stretch (the three column bands are cut). -/
def u1 : Valuation τ sig (Elt F) := after hostOps1 (W)
/-- A buffer stretch 1 does not write keeps its contents through it. -/
theorem u1_keep (r : Ref sig .tc) (h : r ∉ ops1_W) : u1 W (Proc.devRef .tc r) = W (Proc.devRef .tc r) :=
  after_of_writes_sub hostOps1 _ ops1_writes h

/-- The buffer contents after the first 2 stretches (the first row read). -/
def u2 : Valuation τ sig (Elt F) := after hostOps1_1 (u1 W)
/-- A buffer stretch 2 does not write keeps its contents through it. -/
theorem u2_keep (r : Ref sig .tc) (h : r ∉ ops1_1_W) : u2 W (Proc.devRef .tc r) = (u1 W) (Proc.devRef .tc r) :=
  after_of_writes_sub hostOps1_1 _ ops1_1_writes h

/-- The buffer contents after the first 3 stretches (the second row read). -/
def u3 : Valuation τ sig (Elt F) := after hostOps1_2 (u2 W)
/-- A buffer stretch 3 does not write keeps its contents through it. -/
theorem u3_keep (r : Ref sig .tc) (h : r ∉ ops1_2_W) : u3 W (Proc.devRef .tc r) = (u2 W) (Proc.devRef .tc r) :=
  after_of_writes_sub hostOps1_2 _ ops1_2_writes h

/-- The buffer contents after the first 4 stretches (the row sums). -/
def u4 : Valuation τ sig (Elt F) := after hostOps1_3 (u3 W)
/-- A buffer stretch 4 does not write keeps its contents through it. -/
theorem u4_keep (r : Ref sig .tc) (h : r ∉ ops1_3_W) : u4 W (Proc.devRef .tc r) = (u3 W) (Proc.devRef .tc r) :=
  after_of_writes_sub hostOps1_3 _ ops1_3_writes h

/-- The buffer contents after the first 5 stretches (the rectifier). -/
def u5 : Valuation τ sig (Elt F) := after hostOps1_4 (u4 W)
/-- A buffer stretch 5 does not write keeps its contents through it. -/
theorem u5_keep (r : Ref sig .tc) (h : r ∉ ops1_4_W) : u5 W (Proc.devRef .tc r) = (u4 W) (Proc.devRef .tc r) :=
  after_of_writes_sub hostOps1_4 _ ops1_4_writes h

/-- The buffer contents after the first 6 stretches (the third row read). -/
def u6 : Valuation τ sig (Elt F) := after hostOps1_5 (u5 W)
/-- A buffer stretch 6 does not write keeps its contents through it. -/
theorem u6_keep (r : Ref sig .tc) (h : r ∉ ops1_5_W) : u6 W (Proc.devRef .tc r) = (u5 W) (Proc.devRef .tc r) :=
  after_of_writes_sub hostOps1_5 _ ops1_5_writes h

/-- The buffer contents after the first 7 stretches (the messages and their sums). -/
def u7 : Valuation τ sig (Elt F) := after hostOps1_6 (u6 W)
/-- A buffer stretch 7 does not write keeps its contents through it. -/
theorem u7_keep (r : Ref sig .tc) (h : r ∉ ops1_6_W) : u7 W (Proc.devRef .tc r) = (u6 W) (Proc.devRef .tc r) :=
  after_of_writes_sub hostOps1_6 _ ops1_6_writes h

/-! ### The two index vectors are never written -/

theorem u1_arg4 : u1 W (Proc.devRef .tc main_arg4) = W (Proc.devRef .tc main_arg4) :=
  u1_keep W main_arg4 (by decide)
theorem u2_arg4 : u2 W (Proc.devRef .tc main_arg4) = W (Proc.devRef .tc main_arg4) :=
  (u2_keep W main_arg4 (by decide)).trans (u1_arg4 W)
theorem u3_arg4 : u3 W (Proc.devRef .tc main_arg4) = W (Proc.devRef .tc main_arg4) :=
  (u3_keep W main_arg4 (by decide)).trans (u2_arg4 W)
theorem u4_arg4 : u4 W (Proc.devRef .tc main_arg4) = W (Proc.devRef .tc main_arg4) :=
  (u4_keep W main_arg4 (by decide)).trans (u3_arg4 W)
theorem u5_arg4 : u5 W (Proc.devRef .tc main_arg4) = W (Proc.devRef .tc main_arg4) :=
  (u5_keep W main_arg4 (by decide)).trans (u4_arg4 W)
theorem u6_arg4 : u6 W (Proc.devRef .tc main_arg4) = W (Proc.devRef .tc main_arg4) :=
  (u6_keep W main_arg4 (by decide)).trans (u5_arg4 W)
theorem u1_arg5 : u1 W (Proc.devRef .tc main_arg5) = W (Proc.devRef .tc main_arg5) :=
  u1_keep W main_arg5 (by decide)
theorem u2_arg5 : u2 W (Proc.devRef .tc main_arg5) = W (Proc.devRef .tc main_arg5) :=
  (u2_keep W main_arg5 (by decide)).trans (u1_arg5 W)
theorem u3_arg5 : u3 W (Proc.devRef .tc main_arg5) = W (Proc.devRef .tc main_arg5) :=
  (u3_keep W main_arg5 (by decide)).trans (u2_arg5 W)
theorem u4_arg5 : u4 W (Proc.devRef .tc main_arg5) = W (Proc.devRef .tc main_arg5) :=
  (u4_keep W main_arg5 (by decide)).trans (u3_arg5 W)
theorem u5_arg5 : u5 W (Proc.devRef .tc main_arg5) = W (Proc.devRef .tc main_arg5) :=
  (u5_keep W main_arg5 (by decide)).trans (u4_arg5 W)

/-! ### Each produced buffer, carried to where it is read -/

theorem u1_v3 : u1 W (Proc.devRef .tc main_v3) = band0 (W (Proc.devRef .tc main_v2)) := by
  unfold u1; exact s1_v3 W
theorem u1_v4 : u1 W (Proc.devRef .tc main_v4) = band1 (W (Proc.devRef .tc main_v2)) := by
  unfold u1; exact s1_v4 W
theorem u1_v5 : u1 W (Proc.devRef .tc main_v5) = band2 (W (Proc.devRef .tc main_v2)) := by
  unfold u1; exact s1_v5 W
theorem u2_v3 : u2 W (Proc.devRef .tc main_v3) = band0 (W (Proc.devRef .tc main_v2)) :=
  (u2_keep W main_v3 (by decide)).trans (u1_v3 W)
theorem u2_v4 : u2 W (Proc.devRef .tc main_v4) = band1 (W (Proc.devRef .tc main_v2)) :=
  (u2_keep W main_v4 (by decide)).trans (u1_v4 W)
theorem u2_v6 : u2 W (Proc.devRef .tc main_v6) = take (band2 (W (Proc.devRef .tc main_v2))) (W (Proc.devRef .tc main_arg4)) := by
  unfold u2; rw [s2_v6, u1_v5, u1_arg4]
theorem u3_v3 : u3 W (Proc.devRef .tc main_v3) = band0 (W (Proc.devRef .tc main_v2)) :=
  (u3_keep W main_v3 (by decide)).trans (u2_v3 W)
theorem u3_v6 : u3 W (Proc.devRef .tc main_v6) = take (band2 (W (Proc.devRef .tc main_v2))) (W (Proc.devRef .tc main_arg4)) :=
  (u3_keep W main_v6 (by decide)).trans (u2_v6 W)
theorem u3_v7 : u3 W (Proc.devRef .tc main_v7) = take (band1 (W (Proc.devRef .tc main_v2))) (W (Proc.devRef .tc main_arg5)) := by
  unfold u3; rw [s3_v7, u2_v4, u2_arg5]
theorem u4_v3 : u4 W (Proc.devRef .tc main_v3) = band0 (W (Proc.devRef .tc main_v2)) :=
  (u4_keep W main_v3 (by decide)).trans (u3_v3 W)
theorem u4_v9 : u4 W (Proc.devRef .tc main_v9) = dots (take (band2 (W (Proc.devRef .tc main_v2))) (W (Proc.devRef .tc main_arg4))) (take (band1 (W (Proc.devRef .tc main_v2))) (W (Proc.devRef .tc main_arg5))) := by
  unfold u4; rw [s4_v9, u3_v6, u3_v7]
theorem u4_cst_0 : u4 W (Proc.devRef .tc main_cst_0) = constant S_ .f32 0x3E4CCCCD#32 := by
  unfold u4; exact s4_cst0 _
theorem u5_v3 : u5 W (Proc.devRef .tc main_v3) = band0 (W (Proc.devRef .tc main_v2)) :=
  (u5_keep W main_v3 (by decide)).trans (u4_v3 W)
theorem u5_v10 : u5 W (Proc.devRef .tc main_v10) = leaky (dots (take (band2 (W (Proc.devRef .tc main_v2))) (W (Proc.devRef .tc main_arg4))) (take (band1 (W (Proc.devRef .tc main_v2))) (W (Proc.devRef .tc main_arg5)))) (constant S_ .f32 0x3E4CCCCD#32) := by
  unfold u5; rw [s5_v10, u4_v9, u4_cst_0]
theorem u6_v10 : u6 W (Proc.devRef .tc main_v10) = leaky (dots (take (band2 (W (Proc.devRef .tc main_v2))) (W (Proc.devRef .tc main_arg4))) (take (band1 (W (Proc.devRef .tc main_v2))) (W (Proc.devRef .tc main_arg5)))) (constant S_ .f32 0x3E4CCCCD#32) :=
  (u6_keep W main_v10 (by decide)).trans (u5_v10 W)
theorem u6_v11 : u6 W (Proc.devRef .tc main_v11) = take (band0 (W (Proc.devRef .tc main_v2))) (W (Proc.devRef .tc main_arg5)) := by
  unfold u6; rw [s6_v11, u5_v3, u5_arg5]

/-- The result buffer after the seven stretches: `tail` of the product array and the two index vectors. -/
theorem u7_v17 : u7 W (Proc.devRef .tc main_v17) = tail (W (Proc.devRef .tc main_v2)) (W (Proc.devRef .tc main_arg4)) (W (Proc.devRef .tc main_arg5)) := by
  unfold u7; rw [s7_v17, u6_arg4, u6_v10, u6_v11]; rfl

/-- The seven stretches in one line are the seven in turn. -/
theorem after_tailOps : after (tailOps (F := F)).flatten W = u7 W := by
  simp only [tailOps, List.flatten_cons, List.flatten_nil, List.append_nil, after_append]
  rfl

/-- THE TAIL'S VALUE: from any contents, after the later lines the result buffer holds `tail` of what the product array
    and the two index vectors held. -/
theorem tail_value : after (tailOps (F := F)).flatten W (Proc.devRef .tc main_v17) = tail (W (Proc.devRef .tc main_v2)) (W (Proc.devRef .tc main_arg4)) (W (Proc.devRef .tc main_arg5)) := by
  rw [after_tailOps]; exact u7_v17 W

end Chain

/-! ## The result after the run -/

variable (m : (ℓ : Loc nD τ sig) → Buf (Elt F) ℓ)

/-- After the run the result buffer holds `tail` of the product array as the pipeline leaves it (window 2's array after
    every write-back) and of the two index vectors as launched: the later lines start from the region's exit contents,
    where the product array is the pipeline's and the index vectors, no array of the pipeline and written by no
    earlier line, are as launched. -/
theorem result_v17 (c : Dev nD) : Pipeline.afterTail₀ cfgs (dats m) 0 (V0 m) tailOps c main_v17
    = tail ((dats m 0 c).arrAt 2 cfg0.N) (m ((c : Thread nD τ).loc main_arg4)) (m ((c : Thread nD τ).loc main_arg5)) := by
  unfold Pipeline.afterTail₀
  rw [tail_value]
  have h2 := Pipeline.withArrays_arr spec0 launch0.win.arr_inj c (V0 m c) (fun w => (dats m 0 c).arrAt w cfg0.N) 2
  have h4 := (Pipeline.withArrays_of_ne spec0 c (V0 m c) (fun w => (dats m 0 c).arrAt w cfg0.N) main_arg4 (by decide)).trans (V_main_arg4 m c)
  have h5 := (Pipeline.withArrays_of_ne spec0 c (V0 m c) (fun w => (dats m 0 c).arrAt w cfg0.N) main_arg5 (by decide)).trans (V_main_arg5 m c)
  exact congr (congr (congrArg tail h2) h4) h5

/-- THE RUN WITH ITS VALUE: the program runs to the end, the result buffer holds `tail` of the pipeline's product array and
    the launched index vectors, and the six argument arrays end as launched. -/
theorem run_value (ρ : Dev nD → PrngReg) : θ_run defs (onTc (τ := τ) (main (F := F))) ⟨m, fun _ => 0, ρ⟩ (fun r => ∀ c : Dev nD,
      r.2.mem ((c.tc : Thread nD τ).loc main_v17) = tail ((dats m 0 c).arrAt 2 cfg0.N) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v17 (Pipeline.mem_restRefs_of main_v17 (by decide) (by decide))).trans (result_v17 m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩) (run_main m ρ)

end Cert.KernelIdeal.Hand

end
-- ==== Proof.MatCat.lean ====
/-
  One matrix product against three weight matrices packed side by side, then cut into its three
  column blocks, is the three separate products: column q + 128·s of X · [W | W_r | W_l] is column q of X times the s-th
  matrix. Stated at the ideal values, where a change of format is the identity and both the kernel's matrix product and
  the host's dot_general are the exact contraction ∑ₖ X(p,k) · W(k,q).
-/
import proofs.«409221_j3023656976834_2_alg».proof.Proof.Gen.KernelIdeal
import proofs.«409221_j3023656976834_2_alg».proof.Proof.Gen.ReferenceIdeal
import Idealize.ShloMosaic.PureOps.Ideal.Laws
import Idealize.ShloMosaic.Lib.ValueIdx
import Idealize.ShloMosaic.Lib.Pipeline.Value

noncomputable section

open scoped BigOperators

namespace Cert.Bridge.MatCat

open Idealize.ShloMosaic Idealize.ShloMosaic.ValueIdx

/-- The packed weights as the kernel program's two host operations before the region make them: the three matrices
    concatenated along axis 1, then the change of format. -/
def wcat (W Wr Wl : FVec Ideal Cert.KernelIdeal.S128x128 .f32) : FVec Ideal Cert.KernelIdeal.S128x384 .bf16 :=
  truncf .bf16
    (concatenate Cert.KernelIdeal.S128x384 1
      [⟨Cert.KernelIdeal.S128x128, W⟩, ⟨Cert.KernelIdeal.S128x128, Wr⟩, ⟨Cert.KernelIdeal.S128x128, Wl⟩]
      Cert.KernelIdeal.Gen.concatenates_S128x128_S128x128_S128x128_S128x384_d1)
    Cert.KernelIdeal.Gen.bitsLt_bf16_f32

/-- The whole product, index by index: row `i 0` of X against column `i 1` of the packed weights. -/
def ymat (X : FVec Ideal Cert.KernelIdeal.S50000x128 .f32) (Wc : FVec Ideal Cert.KernelIdeal.S128x384 .bf16) :
    FVec Ideal Cert.KernelIdeal.S50000x384 .f32 :=
  fun i => ∑ k : Fin 128, X (ix2 (i 0) k) * Wc (ix2 k (i 1))

/-! ## The host's dot_general at an index -/

theorem lhs_dot_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide),
    dif_pos (show (0 : Fin Cert.ReferenceIdeal.S50000x128.rank) ∈ Cert.ReferenceIdeal.dot_S50000x128_S128x128_S50000x128_1_0_0_1_n_n.lhsNonContracting by decide)]
  rfl
theorem lhs_dot_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rhs_dot_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rhs_dot_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide),
    dif_pos (show (1 : Fin Cert.ReferenceIdeal.S128x128.rank) ∈ Cert.ReferenceIdeal.dot_S50000x128_S128x128_S50000x128_1_0_0_1_n_n.rhsNonContracting by decide)]
  rfl

/-- The host's product of X by a 128 × 128 matrix at (p, q): ∑ₖ X(p,k) · W(k,q). -/
theorem dot_apply (X : FVec Ideal Cert.KernelIdeal.S50000x128 .f32) (W : FVec Ideal Cert.KernelIdeal.S128x128 .f32)
    (p : Fin 50000) (q : Fin 128) :
    Host.dotGeneral (F := Ideal) Cert.ReferenceIdeal.dot_S50000x128_S128x128_S50000x128_1_0_0_1_n_n none X W (ix2 p q)
      = ∑ k : Fin 128, X (ix2 p k) * W (ix2 k q) := by
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 p q)
      ((ValueIdx.contrEquiv1 Cert.ReferenceIdeal.dot_S50000x128_S128x128_S50000x128_1_0_0_1_n_n 128 rfl rfl).symm k) = ix2 p k :=
    funext fun a => Fin.ext (by
      match a with
      | ⟨0, _⟩ => exact lhs_dot_0 _ _
      | ⟨1, _⟩ => exact (lhs_dot_1 _ _).trans hk)
  have er : Cert.ReferenceIdeal.dot_S50000x128_S128x128_S50000x128_1_0_0_1_n_n.rhsIdx (ix2 p q)
      ((ValueIdx.contrEquiv1 Cert.ReferenceIdeal.dot_S50000x128_S128x128_S50000x128_1_0_0_1_n_n 128 rfl rfl).symm k) = ix2 k q :=
    funext fun a => Fin.ext (by
      match a with
      | ⟨0, _⟩ => exact (rhs_dot_0 _ _).trans hk
      | ⟨1, _⟩ => exact rhs_dot_1 _ _)
  rw [el, er]

/-! ## The packed weights at an index -/

/-- Column q + 0 of the packed weights is column q of the first matrix. -/
theorem wcat_apply0 (W Wr Wl : FVec Ideal Cert.KernelIdeal.S128x128 .f32) (k q : Fin 128) (q' : Fin 384) (hq : q'.val = q.val) :
    wcat W Wr Wl (ix2 k q') = W (ix2 k q) := by
  unfold wcat
  rw [truncf_apply]
  refine concatenate_apply_piece (1 : Fin 2)
    [⟨Cert.KernelIdeal.S128x128, W⟩, ⟨Cert.KernelIdeal.S128x128, Wr⟩, ⟨Cert.KernelIdeal.S128x128, Wl⟩] _ (ix2 k q')
    0 (by show 0 < 3; omega) Cert.KernelIdeal.S128x128 W rfl rfl 0 rfl (ix2 k q) (fun b hb => ?_) ?_
  · match b with
    | ⟨0, _⟩ => rfl
    | ⟨1, _⟩ => exact absurd rfl hb
  · show 0 + q.val = q'.val
    omega

/-- Column q + 128 of the packed weights is column q of the second matrix. -/
theorem wcat_apply1 (W Wr Wl : FVec Ideal Cert.KernelIdeal.S128x128 .f32) (k q : Fin 128) (q' : Fin 384) (hq : q'.val = 128 + q.val) :
    wcat W Wr Wl (ix2 k q') = Wr (ix2 k q) := by
  unfold wcat
  rw [truncf_apply]
  refine concatenate_apply_piece (1 : Fin 2)
    [⟨Cert.KernelIdeal.S128x128, W⟩, ⟨Cert.KernelIdeal.S128x128, Wr⟩, ⟨Cert.KernelIdeal.S128x128, Wl⟩] _ (ix2 k q')
    1 (by show 1 < 3; omega) Cert.KernelIdeal.S128x128 Wr rfl rfl 128 rfl (ix2 k q) (fun b hb => ?_) ?_
  · match b with
    | ⟨0, _⟩ => rfl
    | ⟨1, _⟩ => exact absurd rfl hb
  · show 128 + q.val = q'.val
    omega

/-- Column q + 256 of the packed weights is column q of the third matrix. -/
theorem wcat_apply2 (W Wr Wl : FVec Ideal Cert.KernelIdeal.S128x128 .f32) (k q : Fin 128) (q' : Fin 384) (hq : q'.val = 256 + q.val) :
    wcat W Wr Wl (ix2 k q') = Wl (ix2 k q) := by
  unfold wcat
  rw [truncf_apply]
  refine concatenate_apply_piece (1 : Fin 2)
    [⟨Cert.KernelIdeal.S128x128, W⟩, ⟨Cert.KernelIdeal.S128x128, Wr⟩, ⟨Cert.KernelIdeal.S128x128, Wl⟩] _ (ix2 k q')
    2 (by show 2 < 3; omega) Cert.KernelIdeal.S128x128 Wl rfl rfl 256 rfl (ix2 k q) (fun b hb => ?_) ?_
  · match b with
    | ⟨0, _⟩ => rfl
    | ⟨1, _⟩ => exact absurd rfl hb
  · show 256 + q.val = q'.val
    omega

/-! ## The three column blocks of the packed product -/

/-- Columns 0 … 127 of the packed product are X · W. -/
theorem slice_comb_of (X : FVec Ideal Cert.KernelIdeal.S50000x128 .f32) (W Wr Wl : FVec Ideal Cert.KernelIdeal.S128x128 .f32)
    (h : Cert.KernelIdeal.S50000x384.Slices ![0, 0] Cert.KernelIdeal.S50000x128) :
    extractStridedSlice Cert.KernelIdeal.S50000x128 ![0, 0] (ymat X (wcat W Wr Wl)) h
      = Host.dotGeneral (F := Ideal) Cert.ReferenceIdeal.dot_S50000x128_S128x128_S50000x128_1_0_0_1_n_n none X W := by
  funext j
  obtain ⟨p, q, rfl⟩ : ∃ (p : Fin 50000) (q : Fin 128), j = ix2 p q := ⟨j 0, j 1, eq_ix2 j⟩
  rw [dot_apply]
  refine (extractStridedSlice_apply ![0, 0] _ h (ix2 p q) (ix2 p (⟨q.val, by omega⟩ : Fin 384)) (fun a => ?_)).trans ?_
  · match a with
    | ⟨0, _⟩ => show p.val = 0 + p.val; omega
    | ⟨1, _⟩ => show q.val = 0 + q.val; omega
  · show ∑ k : Fin 128, X (ix2 p k) * wcat W Wr Wl (ix2 k (⟨q.val, by omega⟩ : Fin 384)) = _
    exact Finset.sum_congr rfl fun k _ => by rw [wcat_apply0 W Wr Wl k q _ rfl]

/-- Columns 128 … 255 of the packed product are X · W_r. -/
theorem slice_hr_of (X : FVec Ideal Cert.KernelIdeal.S50000x128 .f32) (W Wr Wl : FVec Ideal Cert.KernelIdeal.S128x128 .f32)
    (h : Cert.KernelIdeal.S50000x384.Slices ![0, 128] Cert.KernelIdeal.S50000x128) :
    extractStridedSlice Cert.KernelIdeal.S50000x128 ![0, 128] (ymat X (wcat W Wr Wl)) h
      = Host.dotGeneral (F := Ideal) Cert.ReferenceIdeal.dot_S50000x128_S128x128_S50000x128_1_0_0_1_n_n none X Wr := by
  funext j
  obtain ⟨p, q, rfl⟩ : ∃ (p : Fin 50000) (q : Fin 128), j = ix2 p q := ⟨j 0, j 1, eq_ix2 j⟩
  rw [dot_apply]
  refine (extractStridedSlice_apply ![0, 128] _ h (ix2 p q) (ix2 p (⟨128 + q.val, by omega⟩ : Fin 384)) (fun a => ?_)).trans ?_
  · match a with
    | ⟨0, _⟩ => show p.val = 0 + p.val; omega
    | ⟨1, _⟩ => show 128 + q.val = 128 + q.val; rfl
  · show ∑ k : Fin 128, X (ix2 p k) * wcat W Wr Wl (ix2 k (⟨128 + q.val, by omega⟩ : Fin 384)) = _
    exact Finset.sum_congr rfl fun k _ => by rw [wcat_apply1 W Wr Wl k q _ rfl]

/-- Columns 256 … 383 of the packed product are X · W_l. -/
theorem slice_hl_of (X : FVec Ideal Cert.KernelIdeal.S50000x128 .f32) (W Wr Wl : FVec Ideal Cert.KernelIdeal.S128x128 .f32)
    (h : Cert.KernelIdeal.S50000x384.Slices ![0, 256] Cert.KernelIdeal.S50000x128) :
    extractStridedSlice Cert.KernelIdeal.S50000x128 ![0, 256] (ymat X (wcat W Wr Wl)) h
      = Host.dotGeneral (F := Ideal) Cert.ReferenceIdeal.dot_S50000x128_S128x128_S50000x128_1_0_0_1_n_n none X Wl := by
  funext j
  obtain ⟨p, q, rfl⟩ : ∃ (p : Fin 50000) (q : Fin 128), j = ix2 p q := ⟨j 0, j 1, eq_ix2 j⟩
  rw [dot_apply]
  refine (extractStridedSlice_apply ![0, 256] _ h (ix2 p q) (ix2 p (⟨256 + q.val, by omega⟩ : Fin 384)) (fun a => ?_)).trans ?_
  · match a with
    | ⟨0, _⟩ => show p.val = 0 + p.val; omega
    | ⟨1, _⟩ => show 256 + q.val = 256 + q.val; rfl
  · show ∑ k : Fin 128, X (ix2 p k) * wcat W Wr Wl (ix2 k (⟨256 + q.val, by omega⟩ : Fin 384)) = _
    exact Finset.sum_congr rfl fun k _ => by rw [wcat_apply2 W Wr Wl k q _ rfl]

/-- The three, at the shape facts the kernel program states for its slices. -/
theorem slice_comb (X : FVec Ideal Cert.KernelIdeal.S50000x128 .f32) (W Wr Wl : FVec Ideal Cert.KernelIdeal.S128x128 .f32) :
    extractStridedSlice Cert.KernelIdeal.S50000x128 ![0, 0] (ymat X (wcat W Wr Wl))
        Cert.KernelIdeal.Facts₀.slices_S50000x384_S50000x128_0_0
      = Host.dotGeneral (F := Ideal) Cert.ReferenceIdeal.dot_S50000x128_S128x128_S50000x128_1_0_0_1_n_n none X W :=
  slice_comb_of X W Wr Wl _

theorem slice_hr (X : FVec Ideal Cert.KernelIdeal.S50000x128 .f32) (W Wr Wl : FVec Ideal Cert.KernelIdeal.S128x128 .f32) :
    extractStridedSlice Cert.KernelIdeal.S50000x128 ![0, 128] (ymat X (wcat W Wr Wl))
        Cert.KernelIdeal.Facts₀.slices_S50000x384_S50000x128_0_128
      = Host.dotGeneral (F := Ideal) Cert.ReferenceIdeal.dot_S50000x128_S128x128_S50000x128_1_0_0_1_n_n none X Wr :=
  slice_hr_of X W Wr Wl _

theorem slice_hl (X : FVec Ideal Cert.KernelIdeal.S50000x128 .f32) (W Wr Wl : FVec Ideal Cert.KernelIdeal.S128x128 .f32) :
    extractStridedSlice Cert.KernelIdeal.S50000x128 ![0, 256] (ymat X (wcat W Wr Wl))
        Cert.KernelIdeal.Facts₀.slices_S50000x384_S50000x128_0_256
      = Host.dotGeneral (F := Ideal) Cert.ReferenceIdeal.dot_S50000x128_S128x128_S50000x128_1_0_0_1_n_n none X Wl :=
  slice_hl_of X W Wr Wl _

end Cert.Bridge.MatCat

end
-- ==== Proof.KIPay.lean ====
/-
  One block of the kernel's matrix product, read at an entry.

  The kernel body takes a block X of 5000 rows and 128 columns and the packed weight matrix W of
  128 rows and 384 columns, narrows X's entries, and multiplies the two onto a zero accumulator.
  At the ideal values the narrowing changes nothing, so the entry in row p and column q of the
  product is the plain contraction  Σ_k X[p, k] · W[k, q].
-/
import proofs.«409221_j3023656976834_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Hand

open Cert.KernelIdeal Cert.KernelIdeal.Gen Idealize.ShloMosaic Idealize.ShloMosaic.ValueIdx

/-! ## Where the product reads its two operands

For the output entry j = (row, column) and the position k along the one contracted axis, the left
operand is read at (row, k) and the right operand at (k, column). One statement per axis. -/

/-- The left operand's row is the output's row. -/
theorem lhs_dot_S5000x128_S128x384_S5000x384_1_0_0_1_n_n_0 (j : S5000x384.Idx) (k : dot_S5000x128_S128x384_S5000x384_1_0_0_1_n_n.contr.Idx) :
    (dot_S5000x128_S128x384_S5000x384_1_0_0_1_n_n.lhsIdx j k 0).val = (j 0).val := by
  unfold DotDims.lhsIdx
  rw [dif_neg (show ¬ (0 : Fin S5000x128.rank) ∈ dot_S5000x128_S128x384_S5000x384_1_0_0_1_n_n.lhsBatch by decide),
    dif_pos (show (0 : Fin S5000x128.rank) ∈ dot_S5000x128_S128x384_S5000x384_1_0_0_1_n_n.lhsNonContracting by decide)]
  rfl

/-- The left operand's column is the contracted position. -/
theorem lhs_dot_S5000x128_S128x384_S5000x384_1_0_0_1_n_n_1 (j : S5000x384.Idx) (k : dot_S5000x128_S128x384_S5000x384_1_0_0_1_n_n.contr.Idx) :
    (dot_S5000x128_S128x384_S5000x384_1_0_0_1_n_n.lhsIdx j k 1).val = (k ⟨0, Nat.one_pos⟩).val :=
  dot_S5000x128_S128x384_S5000x384_1_0_0_1_n_n.lhsIdx_val_of_single (cl := 1) rfl j k

/-- The right operand's row is the contracted position. -/
theorem rhs_dot_S5000x128_S128x384_S5000x384_1_0_0_1_n_n_0 (j : S5000x384.Idx) (k : dot_S5000x128_S128x384_S5000x384_1_0_0_1_n_n.contr.Idx) :
    (dot_S5000x128_S128x384_S5000x384_1_0_0_1_n_n.rhsIdx j k 0).val = (k ⟨0, Nat.one_pos⟩).val :=
  dot_S5000x128_S128x384_S5000x384_1_0_0_1_n_n.rhsIdx_val_of_single (cr := 0) rfl j k

/-- The right operand's column is the output's column. -/
theorem rhs_dot_S5000x128_S128x384_S5000x384_1_0_0_1_n_n_1 (j : S5000x384.Idx) (k : dot_S5000x128_S128x384_S5000x384_1_0_0_1_n_n.contr.Idx) :
    (dot_S5000x128_S128x384_S5000x384_1_0_0_1_n_n.rhsIdx j k 1).val = (j 1).val := by
  unfold DotDims.rhsIdx
  rw [dif_neg (show ¬ (1 : Fin S128x384.rank) ∈ dot_S5000x128_S128x384_S5000x384_1_0_0_1_n_n.rhsBatch by decide),
    dif_pos (show (1 : Fin S128x384.rank) ∈ dot_S5000x128_S128x384_S5000x384_1_0_0_1_n_n.rhsNonContracting by decide)]
  rfl

/-! ## The block product at an entry -/

/-- Entry (p, q) of one block's product is the sum over the 128 contracted positions of the
    products of X's row p with W's column q. -/
theorem pay_apply (x0 : FVec Ideal S5000x128 .f32) (x1 : FVec Ideal S128x384 .bf16) (p : Fin 5000) (q : Fin 384) :
    k0_pay1 (F := Ideal) x0 x1 (ix2 p q) = ∑ k : Fin 128, x0 (ix2 p k) * x1 (ix2 k q) := by
  unfold k0_pay1
  refine (Ideal.matmul_constant_zero_apply dot_S5000x128_S128x384_S5000x384_1_0_0_1_n_n none _ _ (ix2 p q)).trans ?_
  rw [shapeCast_self, ← Equiv.sum_comp (contrEquiv1 dot_S5000x128_S128x384_S5000x384_1_0_0_1_n_n 128 rfl rfl).symm]
  refine Finset.sum_congr rfl fun c _ => ?_
  have hk := contrEquiv1_symm_val dot_S5000x128_S128x384_S5000x384_1_0_0_1_n_n 128 rfl rfl c
  have hl : dot_S5000x128_S128x384_S5000x384_1_0_0_1_n_n.lhsIdx (ix2 p q) ((contrEquiv1 dot_S5000x128_S128x384_S5000x384_1_0_0_1_n_n 128 rfl rfl).symm c) = ix2 p c := by
    funext ax
    apply Fin.ext
    match ax with
    | ⟨0, _⟩ => exact lhs_dot_S5000x128_S128x384_S5000x384_1_0_0_1_n_n_0 _ _
    | ⟨1, _⟩ => exact (lhs_dot_S5000x128_S128x384_S5000x384_1_0_0_1_n_n_1 _ _).trans hk
  have hr : dot_S5000x128_S128x384_S5000x384_1_0_0_1_n_n.rhsIdx (ix2 p q) ((contrEquiv1 dot_S5000x128_S128x384_S5000x384_1_0_0_1_n_n 128 rfl rfl).symm c) = ix2 c q := by
    funext ax
    apply Fin.ext
    match ax with
    | ⟨0, _⟩ => exact (rhs_dot_S5000x128_S128x384_S5000x384_1_0_0_1_n_n_0 _ _).trans hk
    | ⟨1, _⟩ => exact rhs_dot_S5000x128_S128x384_S5000x384_1_0_0_1_n_n_1 _ _
  rw [hl, hr]
  rfl

end Cert.KernelIdeal.Hand

end
-- ==== Proof.KIArr.lean ====
/-
  What the pipelined region leaves in its output array, as one function of the argument arrays, at the ideal values.

  The region multiplies the node table X (50000 rows, 128 columns), ten blocks of 5000 rows, by the packed weights
  [W | W_r | W_l] (128 rows, 384 columns), which two host operations before the region make from the three weight
  matrices; each grid point writes back its 5000 rows of the product. Row r of the product array is therefore written
  by point r / 5000, the ten blocks tile the array, and the array ends holding the whole product
  Y(r, q) = ∑ₖ X(r, k) · [W | W_r | W_l](k, q).
-/
import proofs.«409221_j3023656976834_2_alg».proof.Proof.KIFrame
import proofs.«409221_j3023656976834_2_alg».proof.Proof.MatCat
import proofs.«409221_j3023656976834_2_alg».proof.Proof.KIPay
import Idealize.ShloMosaic.Lib.Pipeline.Value
import Idealize.ShloMosaic.Lib.ValueIdx
import Idealize.ShloMosaic.Lib.StableHlo.Run

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Bridge.MatCat (wcat ymat)

variable (m : (ℓ : Loc nD τ sig) → Buf (Elt Ideal) ℓ)

/-! ## The packed weights as the region finds them -/

/-- The region's second array holds the three weight matrices side by side, in the narrower format: what the two
    host operations before the region compute from the launch contents of the three arguments. -/
theorem V_main_v1 (c : Dev nD) :
    V m c main_v1 = wcat (m ((c : Thread nD τ).loc main_arg1)) (m ((c : Thread nD τ).loc main_arg2)) (m ((c : Thread nD τ).loc main_arg3)) := by
  show StableHlo.after hostOps0 (fun b => m (c, b)) (Proc.devRef .tc main_v1) = _
  after_results
  rfl

/-! ## The index maps, and where a block's entry lies in its array -/

theorem zero_offsets : (![0, 0] : Fin 2 → Nat) = fun _ => 0 := funext fun a => by fin_cases a <;> rfl

/-- The grid has ten points. -/
theorem point_lt (t : Fin cfg0.N) : t.val < 10 := lt_of_lt_of_eq t.isLt N_0

/-- The printed index maps, decided over the grid: at point `t` the input's and the product's block index is
    `(t, 0)`, the packed weights' is `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the input's block at point `t` is entry (5000·t + p, k) of the node table. -/
theorem iblk0_apply (c : Dev nD) (t : Fin cfg0.N) (p : Fin 5000) (k : Fin 128) (h : t.val * 5000 + p.val < 50000) :
    (iblk m c 0 t : FVec Ideal S5000x128 .f32) (ix2 p k)
      = (V m c main_arg0 : FVec Ideal S50000x128 .f32) (ix2 ⟨t.val * 5000 + p.val, h⟩ k) := by
  obtain ⟨e0, e1, -⟩ := idx_facts t
  show V m c main_arg0 (((cfg0.win 0).blk t).view.emb (ix2 p k)) = V m c main_arg0 (ix2 ⟨t.val * 5000 + p.val, h⟩ k)
  refine congrArg (V m c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The packed weights' block is the whole array at every point. -/
theorem iblk1_apply (c : Dev nD) (t : Fin cfg0.N) (k : Fin 128) (q : Fin 384) :
    (iblk m c 1 t : FVec Ideal S128x384 .bf16) (ix2 k q) = (V m c main_v1 : FVec Ideal S128x384 .bf16) (ix2 k q) := by
  obtain ⟨-, -, e2, e3, -⟩ := idx_facts t
  show V m c main_v1 (((cfg0.win 1).blk t).view.emb (ix2 k q)) = V m c main_v1 (ix2 k q)
  refine congrArg (V m c main_v1) (funext fun a => Fin.ext ?_)
  match a with
  | ⟨0, _⟩ => show win0_1.index t (0 : Fin 2) * 128 + 1 * k.val = k.val; omega
  | ⟨1, _⟩ => show win0_1.index t (1 : Fin 2) * 384 + 1 * q.val = q.val; omega

/-- Entry (p, q) of the product's block at point `t` sits at (5000·t + p, q) in the product array. -/
theorem emb2_eq (t : Fin cfg0.N) (p : Fin 5000) (q : Fin 384) (h : t.val * 5000 + p.val < 50000) :
    (((cfg0.win 2).blk t).view.emb (ix2 p q) : S50000x384.Idx) = ix2 ⟨t.val * 5000 + p.val, h⟩ q := by
  obtain ⟨-, -, -, -, e4, e5⟩ := idx_facts t
  refine funext fun a => Fin.ext ?_
  match a with
  | ⟨0, _⟩ => show win0_2.index t (0 : Fin 2) * 5000 + 1 * p.val = t.val * 5000 + p.val; omega
  | ⟨1, _⟩ => show win0_2.index t (1 : Fin 2) * 384 + 1 * q.val = q.val; omega

/-! ## What a point writes back -/

/-- Point `t` writes back block `t` of the whole product: entry (p, q) of what the body leaves is the contraction of
    row p of the input's block with column q of the weights' block, and those are row 5000·t + p of the node table and
    column q of the packed weights. -/
theorem flushed2_eq (c : Dev nD) (t : Fin cfg0.N) :
    (dats m 0 c).flushed 2 t = ((cfg0.win 2).blk t).view.read (Elt Ideal) (ymat (V m c main_arg0) (V m c main_v1)) := by
  show (cfg0.win 2).cut (grid0.coords t) ((dats m 0 c).after 2 t) = _
  rw [after0_2]
  unfold out0_2
  rw [View.canon_unit_zero zero_offsets]
  simp only [View.ld_unit_zero (S := S5000x128) zero_offsets, View.ld_unit_zero (S := S128x384) zero_offsets]
  funext j
  obtain ⟨p, q, rfl⟩ : ∃ (p : Fin 5000) (q : Fin 384), j = ix2 p q := ⟨j 0, j 1, eq_ix2 j⟩
  have hp : t.val * 5000 + p.val < 50000 := by have := point_lt t; have := p.isLt; omega
  show k0_pay1 (F := Ideal) (iblk m c 0 t) (iblk m c 1 t) (ix2 p q)
      = ymat (V m c main_arg0) (V m c main_v1) (((cfg0.win 2).blk t).view.emb (ix2 p q))
  refine (pay_apply (iblk m c 0 t) (iblk m c 1 t) p q).trans ?_
  rw [emb2_eq t p q hp]
  unfold Cert.Bridge.MatCat.ymat
  refine Finset.sum_congr rfl fun k _ => ?_
  exact congrArg₂ (· * ·) (iblk0_apply m c t p k hp) (iblk1_apply m c t k q)

/-! ## The blocks tile the array -/

/-- An index of the product array is in point `t`'s block iff each coordinate is in the block's range on its axis. -/
theorem mem_blk2 (t : Fin cfg0.N) (i : S50000x384.Idx) :
    i ∈ ((cfg0.win 2).blk t).view.set ↔ ∀ a : Fin 2, win0_2.index t a * S5000x384.size a ≤ (i a).val
      ∧ (i a).val < win0_2.index t a * S5000x384.size a + S5000x384.size a := by
  show i ∈ ((View.whole main_v2).slice (win0_2.rect t)).set ↔ _
  rw [View.set_slice_whole, Rect.mem_set_unit]
  exact Iff.rfl

/-- Row r of the product array lies in the block of point r / 5000, which writes it back. -/
theorem cover2 (i : S50000x384.Idx) :
    ∃ t : Fin cfg0.N, (cfg0.win 2).flush t = true ∧ i ∈ ((cfg0.win 2).blk t).view.set := by
  have hi0 : (i 0).val < 50000 := (i 0).isLt
  have hi1 : (i 1).val < 384 := (i 1).isLt
  obtain ⟨t, ht⟩ : ∃ t : Fin cfg0.N, t.val = (i 0).val / 5000 :=
    ⟨⟨(i 0).val / 5000, lt_of_lt_of_eq (by omega : (i 0).val / 5000 < 10) N_0.symm⟩, rfl⟩
  obtain ⟨-, -, -, -, e4, e5⟩ := idx_facts t
  refine ⟨t, flush0_2 t, ?_⟩
  rw [mem_blk2]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 384 ≤ (i 1).val ∧ (i 1).val < win0_2.index t (1 : Fin 2) * 384 + 384
    omega

/-! ## The array after the run -/

/-- The product array ends holding the whole product of the node table with the packed weights, as functions of
    the launch contents of the four arguments. -/
theorem final2 (c : Dev nD) :
    (dats m 0 c).arrAt 2 cfg0.N
      = ymat (m ((c : Thread nD τ).loc main_arg0)) (wcat (m ((c : Thread nD τ).loc main_arg1)) (m ((c : Thread nD τ).loc main_arg2)) (m ((c : Thread nD τ).loc main_arg3))) := by
  rw [(dats m 0 c).arrAt_eq_of_cover 2 (ymat (V m c main_arg0) (V m c main_v1)) (fun t _ => flushed2_eq m c t) cover2,
    V_main_arg0, V_main_v1]

end Cert.KernelIdeal.Hand

end
-- ==== Proof.RRun.lean ====
/-
  The run of the reference @main: its forty-one host operations and the seven of the inlined call of
  @leaky_relu (whose last is @_where's select), as one straight line; every weakly fair execution terminates with
  the result buffer at a composition of stage functions of the arguments' launch contents, the arguments unchanged.

  The stages: the three products X·W, X·W_r, X·W_l; a row gather of each at an index vector whose negative entries
  are wrapped once by +50000 (nrm, gat); the edge score, the row sum of the product of two gathered tables passed
  through the leaky rectifier of slope 0.2 (score, leaky); the messages, the score broadcast along the row times the
  third gathered table (msgs); and their accumulation by source index into a table of zeros (out).
-/
import proofs.«409221_j3023656976834_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stage functions -/

/-- An index vector normalised for a row gather: an entry below zero has 50000 added to it (once), the others are
    kept; the result as a column. -/
def nrm (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The rows of the table `h` at the normalised indices. -/
def gat (h : FVec F S50000x128 .f32) (idx : IVec S800000 32) : FVec F S800000x128 .f32 :=
  Host.gather gather_S50000x128_S800000x1_S800000x128_1_0_n_n_0_1_1128 h (nrm idx)

/-- The leaky rectifier of slope 0.2: `v` where `v ≥ 0`, else `0.2 · v`. -/
def leaky (v : FVec F S800000 .f32) : FVec F S800000 .f32 :=
  select (cmpf .oge v (broadcastInDim S800000 ![] bcast_S_S800000 (constant (F := F) S_ .f32 0x00000000#32))) v
    (mulf (broadcastInDim S800000 ![] bcast_S_S800000 (id (constant (F := F) S_ .f32 0x3E4CCCCD#32))) v)

/-- The edge score: the row sum of `hl[src] · hr[dst]`, through the leaky rectifier. -/
def score (hl hr : FVec F S50000x128 .f32) (src dst : IVec S800000 32) : FVec F S800000 .f32 :=
  leaky (Host.reduceAdd (mulf (gat hl src) (gat hr dst)) (constant (F := F) S_ .f32 0x00000000#32) reducesTo_S800000x128_S800000_d1 h_S_)

/-- The messages: each edge's score along its row, times `comb[dst]`. -/
def msgs (comb hl hr : FVec F S50000x128 .f32) (src dst : IVec S800000 32) : FVec F S800000x128 .f32 :=
  mulf (broadcastInDim S800000x128 ![0, 1] bcast_S800000x1_S800000x128_0_1
      (broadcastInDim S800000x1 ![0] bcast_S800000_S800000x1_0 (score hl hr src dst)))
    (gat comb dst)

/-- The result: the messages added into a table of zeros at the rows the source indices name (as they are, not
    normalised). -/
def out (comb hl hr : FVec F S50000x128 .f32) (src dst : IVec S800000 32) : FVec F S50000x128 .f32 :=
  Host.scatterAdd scatter_S50000x128_S800000x1_S800000x128_1_0_0_1
    (broadcastInDim S50000x128 ![] bcast_S_S50000x128 (constant (F := F) S_ .f32 0x00000000#32))
    (broadcastInDim S800000x1 ![0] bcast_S800000_S800000x1_0 src)
    (msgs comb hl hr src dst)

/-- The product of the node table with one weight matrix. -/
def dot (x : FVec F S50000x128 .f32) (w : FVec F S128x128 .f32) : FVec F S50000x128 .f32 :=
  Host.dotGeneral dot_S50000x128_S128x128_S50000x128_1_0_0_1_n_n none x w

/-! ## The straight line -/

/-- @main's operations in order, the call of @leaky_relu (and in it @_where's) unfolded at its place. -/
abbrev ops : List (HloOp τ sig (Elt F)) :=
  [ binary main_arg0 main_arg1 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_arg0 main_arg2 main_v1 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_arg0 main_arg3 main_v2 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c (constantI S_ 32 0#32),
    unary main_c main_v3 (broadcastInDim S800000 ![] bcast_S_S800000 : (⟨S_, .i32⟩ : BufTy).Contents (Elt F) → (⟨S800000, .i32⟩ : BufTy).Contents (Elt F)),
    binary main_arg4 main_v3 main_v4 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v5 (broadcastInDim S800000 ![] bcast_S_S800000 : (⟨S_, .i32⟩ : BufTy).Contents (Elt F) → (⟨S800000, .i32⟩ : BufTy).Contents (Elt F)),
    binary main_arg4 main_v5 main_v6 (addi : (⟨S800000, .i32⟩ : BufTy).Contents (Elt F) → (⟨S800000, .i32⟩ : BufTy).Contents (Elt F) → (⟨S800000, .i32⟩ : BufTy).Contents (Elt F)),
    ternary main_v4 main_v6 main_arg4 main_v7 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v7 main_v8 (broadcastInDim S800000x1 ![0] bcast_S800000_S800000x1_0 : (⟨S800000, .i32⟩ : BufTy).Contents (Elt F) → (⟨S800000x1, .i32⟩ : BufTy).Contents (Elt F)),
    binary main_v2 main_v8 main_v9 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_1 (constantI S_ 32 0#32),
    unary main_c_1 main_v10 (broadcastInDim S800000 ![] bcast_S_S800000 : (⟨S_, .i32⟩ : BufTy).Contents (Elt F) → (⟨S800000, .i32⟩ : BufTy).Contents (Elt F)),
    binary main_arg5 main_v10 main_v11 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v12 (broadcastInDim S800000 ![] bcast_S_S800000 : (⟨S_, .i32⟩ : BufTy).Contents (Elt F) → (⟨S800000, .i32⟩ : BufTy).Contents (Elt F)),
    binary main_arg5 main_v12 main_v13 (addi : (⟨S800000, .i32⟩ : BufTy).Contents (Elt F) → (⟨S800000, .i32⟩ : BufTy).Contents (Elt F) → (⟨S800000, .i32⟩ : BufTy).Contents (Elt F)),
    ternary main_v11 main_v13 main_arg5 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v14 main_v15 (broadcastInDim S800000x1 ![0] bcast_S800000_S800000x1_0 : (⟨S800000, .i32⟩ : BufTy).Contents (Elt F) → (⟨S800000x1, .i32⟩ : BufTy).Contents (Elt F)),
    binary main_v1 main_v15 main_v16 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    binary main_v9 main_v16 main_v17 (mulf : (⟨S800000x128, .f32⟩ : BufTy).Contents (Elt F) → (⟨S800000x128, .f32⟩ : BufTy).Contents (Elt F) → (⟨S800000x128, .f32⟩ : BufTy).Contents (Elt F)),
    nullary main_cst (constant S_ .f32 0x00000000#32),
    binary main_v17 main_cst main_v18 ((fun x v => Host.reduceAdd x v reducesTo_S800000x128_S800000_d1 h_S_) : (⟨S800000x128, .f32⟩ : BufTy).Contents (Elt F) → (⟨S_, .f32⟩ : BufTy).Contents (Elt F) → (⟨S800000, .f32⟩ : BufTy).Contents (Elt F)),
    nullary main_cst_3 (constant S_ .f32 0x3E4CCCCD#32),
    TRef.nullary (.of main_call0_cst : TRef sig ⟨S_, .f32⟩) (constant S_ .f32 0x00000000#32),
    TRef.unary (.of main_call0_cst : TRef sig ⟨S_, .f32⟩) (.of main_call0_v0 : TRef sig ⟨S800000, .f32⟩) (broadcastInDim S800000 ![] bcast_S_S800000),
    TRef.binary (.of main_v18 : TRef sig ⟨S800000, .f32⟩) (.of main_call0_v0 : TRef sig ⟨S800000, .f32⟩) (.of main_call0_v1 : TRef sig ⟨S800000, .i1⟩) (cmpf .oge),
    TRef.unary (.of main_cst_3 : TRef sig ⟨S_, .f32⟩) (.of main_call0_v2 : TRef sig ⟨S_, .f32⟩) id,
    TRef.unary (.of main_call0_v2 : TRef sig ⟨S_, .f32⟩) (.of main_call0_v3 : TRef sig ⟨S800000, .f32⟩) (broadcastInDim S800000 ![] bcast_S_S800000),
    TRef.binary (.of main_call0_v3 : TRef sig ⟨S800000, .f32⟩) (.of main_v18 : TRef sig ⟨S800000, .f32⟩) (.of main_call0_v4 : TRef sig ⟨S800000, .f32⟩) mulf,
    TRef.ternary (.of main_call0_v1 : TRef sig ⟨S800000, .i1⟩) (.of main_v18 : TRef sig ⟨S800000, .f32⟩) (.of main_call0_v4 : TRef sig ⟨S800000, .f32⟩) (.of main_v19 : TRef sig ⟨S800000, .f32⟩) select,
    unary main_v19 main_v20 (broadcastInDim S800000x1 ![0] bcast_S800000_S800000x1_0 : (⟨S800000, .f32⟩ : BufTy).Contents (Elt F) → (⟨S800000x1, .f32⟩ : BufTy).Contents (Elt F)),
    nullary main_c_4 (constantI S_ 32 0#32),
    unary main_c_4 main_v21 (broadcastInDim S800000 ![] bcast_S_S800000 : (⟨S_, .i32⟩ : BufTy).Contents (Elt F) → (⟨S800000, .i32⟩ : BufTy).Contents (Elt F)),
    binary main_arg5 main_v21 main_v22 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v23 (broadcastInDim S800000 ![] bcast_S_S800000 : (⟨S_, .i32⟩ : BufTy).Contents (Elt F) → (⟨S800000, .i32⟩ : BufTy).Contents (Elt F)),
    binary main_arg5 main_v23 main_v24 (addi : (⟨S800000, .i32⟩ : BufTy).Contents (Elt F) → (⟨S800000, .i32⟩ : BufTy).Contents (Elt F) → (⟨S800000, .i32⟩ : BufTy).Contents (Elt F)),
    ternary main_v22 main_v24 main_arg5 main_v25 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v25 main_v26 (broadcastInDim S800000x1 ![0] bcast_S800000_S800000x1_0 : (⟨S800000, .i32⟩ : BufTy).Contents (Elt F) → (⟨S800000x1, .i32⟩ : BufTy).Contents (Elt F)),
    binary main_v0 main_v26 main_v27 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v20 main_v28 (broadcastInDim S800000x128 ![0, 1] bcast_S800000x1_S800000x128_0_1 : (⟨S800000x1, .f32⟩ : BufTy).Contents (Elt F) → (⟨S800000x128, .f32⟩ : BufTy).Contents (Elt F)),
    binary main_v28 main_v27 main_v29 (mulf : (⟨S800000x128, .f32⟩ : BufTy).Contents (Elt F) → (⟨S800000x128, .f32⟩ : BufTy).Contents (Elt F) → (⟨S800000x128, .f32⟩ : BufTy).Contents (Elt F)),
    nullary main_cst_6 (constant S_ .f32 0x00000000#32),
    unary main_cst_6 main_v30 (broadcastInDim S50000x128 ![] bcast_S_S50000x128 : (⟨S_, .f32⟩ : BufTy).Contents (Elt F) → (⟨S50000x128, .f32⟩ : BufTy).Contents (Elt F)),
    unary main_arg4 main_v31 (broadcastInDim S800000x1 ![0] bcast_S800000_S800000x1_0 : (⟨S800000, .i32⟩ : BufTy).Contents (Elt F) → (⟨S800000x1, .i32⟩ : BufTy).Contents (Elt F)),
    ternary main_v30 main_v31 main_v29 main_v32 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

-- forty-eight binds re-associated: one level of recursion per statement
set_option maxRecDepth 1024 in
/-- @main is that straight line: the two functions' definitions unfolded at their calls, both sides are one chain
    of steps once sequencing is reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., binary_bufs_sub ..,
    nullary_bufs_sub .., nullary_bufs_sub .., unary_bufs_sub .., binary_bufs_sub .., unary_bufs_sub .., unary_bufs_sub ..,
    binary_bufs_sub .., ternary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..⟩

/-- What the line leaves at the result buffer, from any contents `V`: each operation's result read at its own
    buffer, the others passed over, the composed term is `out` of the three products by unfolding. -/
theorem out_eq (V : Valuation τ sig (Elt F)) :
    after ops V (Proc.devRef .tc main_v32)
      = out (dot (V (Proc.devRef .tc main_arg0)) (V (Proc.devRef .tc main_arg1))) (dot (V (Proc.devRef .tc main_arg0)) (V (Proc.devRef .tc main_arg3))) (dot (V (Proc.devRef .tc main_arg0)) (V (Proc.devRef .tc main_arg2)))
          (V (Proc.devRef .tc main_arg4)) (V (Proc.devRef .tc main_arg5)) := by
  after_results_simp
  rfl

/-! No operation writes an argument's buffer. -/

theorem arg0_eq (V : Valuation τ sig (Elt F)) :
    after ops V (Proc.devRef .tc main_arg0) = V (Proc.devRef .tc main_arg0) := by
  after_results_simp

theorem arg1_eq (V : Valuation τ sig (Elt F)) :
    after ops V (Proc.devRef .tc main_arg1) = V (Proc.devRef .tc main_arg1) := by
  after_results_simp

theorem arg2_eq (V : Valuation τ sig (Elt F)) :
    after ops V (Proc.devRef .tc main_arg2) = V (Proc.devRef .tc main_arg2) := by
  after_results_simp

theorem arg3_eq (V : Valuation τ sig (Elt F)) :
    after ops V (Proc.devRef .tc main_arg3) = V (Proc.devRef .tc main_arg3) := by
  after_results_simp

theorem arg4_eq (V : Valuation τ sig (Elt F)) :
    after ops V (Proc.devRef .tc main_arg4) = V (Proc.devRef .tc main_arg4) := by
  after_results_simp

theorem arg5_eq (V : Valuation τ sig (Elt F)) :
    after ops V (Proc.devRef .tc main_arg5) = V (Proc.devRef .tc main_arg5) := by
  after_results_simp

/-- On every device, for any float values, from any memory with zero counters: every weakly fair execution of
    @main terminates with the result at `out` of the three products of the node table and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32)
          = out (dot (m ((c.tc : Thread nD τ).loc main_arg0)) (m ((c.tc : Thread nD τ).loc main_arg1))) (dot (m ((c.tc : Thread nD τ).loc main_arg0)) (m ((c.tc : Thread nD τ).loc main_arg3))) (dot (m ((c.tc : Thread nD τ).loc main_arg0)) (m ((c.tc : Thread nD τ).loc main_arg2)))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v32).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

/-- The same run, keeping only that the arguments end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => (h c).2) (run m ρ)

end Cert.ReferenceIdeal.Hand

end
-- ==== Proof.PreDst.lean ====
/-
  The precondition's last conjunct read back: every destination index of the scatter lies in
  [0, 50000) as a signed integer.
-/
import proofs.«409221_j3023656976834_2_alg».proof.Proof.Gen.Pre_finite_inputs
import Idealize.ShloMosaic.Lib.ReduceAll
import Idealize.ShloMosaic.Lib.StableHlo.Predicate
import Idealize.ShloMosaic.Lib.ValueIdx

noncomputable section

namespace Cert.Bridge.PreDst

open Idealize.ShloMosaic Idealize.ShloMosaic.ValueIdx

/-- The scalar shape has one index. -/
instance : Subsingleton Cert.Pre_finite_inputs.S_.Idx := ⟨fun a b => funext fun d => d.elim0⟩

/-- A 32-bit word that passes the signed tests 0 ≤ w and w < 50000 has its signed value in [0, 50000). -/
theorem word_in_range (w : BitVec 32) (hge : IntOp.cmpi .sge w 0#32 = 1#1) (hlt : IntOp.cmpi .slt w 50000#32 = 1#1) :
    0 ≤ w.toInt ∧ w.toInt < 50000 := by
  unfold IntOp.cmpi at hge hlt
  rw [StableHlo.Predicate.ofBool_eq_one_iff] at hge hlt
  simp only [BitVec.sle, BitVec.slt, decide_eq_true_eq] at hge hlt
  have e0 : (0#32 : BitVec 32).toInt = 0 := by decide
  have e1 : (50000#32 : BitVec 32).toInt = 50000 := by decide
  rw [e0] at hge
  rw [e1] at hlt
  exact ⟨hge, hlt⟩

/-- If the printed precondition holds, every destination index is in [0, 50000). -/
theorem dst_in_range {F : FTy → Type} [FloatOps F] (a0 : FVec F Cert.Pre_finite_inputs.S50000x128 .f32)
    (a1 a2 a3 : FVec F Cert.Pre_finite_inputs.S128x128 .f32) (src dst : IVec Cert.Pre_finite_inputs.S800000 32)
    (h : Cert.Pre_finite_inputs.fn (F := F) a0 a1 a2 a3 src dst = fun _ => 1#1) :
    ∀ e : Fin 800000, 0 ≤ (dst (ix1 e)).toInt ∧ (dst (ix1 e)).toInt < 50000 := by
  intro e
  have h0 := congrFun h ValueIdx.ix0
  dsimp only [Cert.Pre_finite_inputs.fn, Cert.Pre_finite_inputs.fn_part1] at h0
  -- the whole predicate is a conjunction whose last member is the test on the destination indices
  have hall := (IntOp.andi_eq_one.1 h0).2
  -- "all" over the 800000 entries: each entry passes
  have hel := Host.reduce_andi_all _ _ _ _ _ hall (ix1 e)
  obtain ⟨hge, hlt⟩ := IntOp.andi_eq_one.1 hel
  exact word_in_range (dst (ix1 e)) hge hlt

end Cert.Bridge.PreDst

end
-- ==== Proof.LibRows.lean ====
/-
  Row-indexed host operations read at an index: `x[idx]` of a two-dimensional array `x : [N, D]` at a column of row
  indices `idx : [E, 1]` (a `stablehlo.gather` along axis 0 taking whole rows), and the accumulating float scatter of
  rows `u : [E, D]` into `[N, D]` at such a column of row indices (what a segment sum lowers to). The gather reads the
  row index signed and clamped into `[0, N − 1]`; the scatter reads it signed and drops an update whose row is out of range.
-/
import Idealize.ShloMosaic.PureOps.Ideal
import Idealize.ShloMosaic.PureOps.Ideal.Laws
import Idealize.ShloMosaic.Lib.ValueIdx

noncomputable section

open scoped BigOperators

namespace Idealize.ShloMosaic.LibRows

open Idealize.ShloMosaic Idealize.ShloMosaic.ValueIdx

/-! ## The gather of rows -/

section Gather
variable {α : Type}

/-- The dimension numbers of `x[idx]` for an operand `[N, D]`, row indices `[E, 1]` and result `[E, D]`: axis 0 of the
    operand is collapsed and indexed by the one component of the start index, axis 1 is taken whole (slice sizes
    `[1, D]`) and is the result's offset axis 1. -/
abbrev rowGather (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The gather of rows read at `(e, k)`: the operand at row `idx[e, 0]`, read signed and clamped into `[0, N − 1]`,
    and column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowGather N D E wf) x idx (ix2 e k)
      = x (ix2 ⟨min (idx (ix2 e 0)).toInt.toNat (N - 1), by omega⟩ k) := by
  unfold Host.gather
  congr 1
  funext a
  refine Fin.ext ?_
  match a with
  | ⟨0, _⟩ =>
    -- the collapsed axis: the clamped row index, no batching or offset coordinate
    show (rowGather N D E wf).start (ix2 e k) idx 0 + (rowGather N D E wf).batchCoord (ix2 e k) 0
      + (rowGather N D E wf).offCoord (ix2 e k) 0 = _
    rw [GatherDims.batchCoord_eq_zero _ _ _ List.not_mem_nil, Nat.add_zero, GatherDims.offCoord_eq_zero _ _ _
      (fun h => ((GatherDims.mem_sKept _ _).mp h).1 (List.mem_singleton.mpr rfl)), Nat.add_zero]
    unfold GatherDims.start
    rw [dif_pos (show (0 : Fin 2) ∈ (rowGather N D E wf).startIndexMap from List.mem_singleton.mpr rfl)]
    have hsi : (rowGather N D E wf).siIdx (ix2 e k) ⟨List.idxOf (0 : Fin 2) (rowGather N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the axis taken whole: start 0, no batching coordinate, the offset coordinate is the result's column
    show (rowGather N D E wf).start (ix2 e k) idx 1 + (rowGather N D E wf).batchCoord (ix2 e k) 1
      + (rowGather N D E wf).offCoord (ix2 e k) 1 = _
    rw [GatherDims.batchCoord_eq_zero _ _ _ List.not_mem_nil, Nat.add_zero]
    unfold GatherDims.start
    rw [dif_neg (show (1 : Fin 2) ∉ (rowGather N D E wf).startIndexMap from
      (by decide : (1 : Fin 2) ∉ ([0] : List (Fin 2)))), Nat.zero_add]
    unfold GatherDims.offCoord
    rw [dif_pos (show (1 : Fin 2) ∈ (rowGather N D E wf).sKept from
      (by decide : (1 : Fin 2) ∈ ([1] : List (Fin 2))))]
    rfl

end Gather

/-! ## The accumulating scatter of rows -/

section Scatter

/-- The dimension numbers of the scatter of rows `[E, D]` into an operand `[N, D]` at row indices `[E, 1]`: axis 0 of the
    operand is an inserted window axis addressed by the one component of the scatter index, axis 1 of the updates is
    the window axis and goes to axis 1 of the operand. -/
abbrev rowScatter (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update that lands somewhere has its row index in range: the start on axis 0 is the row index read signed (not
    clamped) and the window coordinate on the inserted axis 0 is 0. -/
theorem resultIdx_rows {N D E w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatter N D E wf).resultIdx? j idx = some i) :
    0 ≤ (idx (ix2 (j 0) 0)).toInt ∧ (idx (ix2 (j 0) 0)).toInt < N := by
  unfold ScatterDims.resultIdx? at h
  split at h
  · rename_i hall
    have h0 := hall 0
    have hstart : (rowScatter N D E wf).start j idx 0 = (idx (ix2 (j 0) 0)).toInt := by
      unfold ScatterDims.start
      rw [dif_pos (show (0 : Fin 2) ∈ (rowScatter N D E wf).scatterDimsToOperandDims from List.mem_singleton.mpr rfl)]
      have hsi : (rowScatter N D E wf).siIdx j ⟨List.idxOf (0 : Fin 2) (rowScatter N D E wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hwin : (rowScatter N D E wf).window j 0 = 0 := by
      unfold ScatterDims.window
      rw [dif_neg (show (0 : Fin 2) ∉ (rowScatter N D E wf).sKept from
        (by decide : (0 : Fin 2) ∉ ([1] : List (Fin 2))))]
    rw [hstart, hwin] at h0
    have hsize : ((⟨2, ![N, D]⟩ : Shape).size 0 : Int) = (N : Int) := rfl
    rw [hsize] at h0
    simpa using h0
  · exact absurd h (by simp)

/-- Updates whose row index is out of range are dropped, so two update arrays that agree on the rows whose index is in
    range scatter to the same sums. -/
theorem scatterAdd_rows_congr {N D E w : Nat}
    (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (u u' : FVec Ideal ⟨2, ![E, D]⟩ .f32)
    (h : ∀ e : Fin E, 0 ≤ (idx (ix2 e 0)).toInt → (idx (ix2 e 0)).toInt < N → ∀ k : Fin D, u (ix2 e k) = u' (ix2 e k)) :
    Host.scatterAdd (F := Ideal) (rowScatter N D E wf) x idx u
      = Host.scatterAdd (F := Ideal) (rowScatter N D E wf) x idx u' := by
  unfold Host.scatterAdd
  rw [Ideal.hostScatterAdd_def, Ideal.hostScatterAdd_def]
  funext i
  unfold Ideal.hostScatterAdd
  congr 1
  refine Finset.sum_congr rfl fun j hj => ?_
  obtain ⟨h0, h1⟩ := resultIdx_rows wf idx j i (Finset.mem_filter.mp hj).2
  rw [eq_ix2 j]
  exact h (j 0) h0 h1 (j 1)

end Scatter

end Idealize.ShloMosaic.LibRows

end
-- ==== Proof.Edge.lean ====
/-
  The two programs' host tails are one function where the destination indices are in range.

  Both tails accumulate messages by SOURCE row into a table of zeros: an edge whose source index is outside
  [0, 50000) contributes nothing, so the two message arrays only have to agree on the edges whose source index is in
  range. For such an edge, and for every destination index (all in range by hypothesis), the index is not negative, so
  wrapping leaves it alone, and it is at most 49999, so the range test of the guarded row read holds and the guarded
  read is the plain row read. The row sums, the rectifier and the products are then the same functions of equal rows.
-/
import proofs.«409221_j3023656976834_2_alg».proof.Proof.KIStages
import proofs.«409221_j3023656976834_2_alg».proof.Proof.RRun
import proofs.«409221_j3023656976834_2_alg».proof.Proof.LibRows
import Idealize.ShloMosaic.PureOps.Ideal.Laws
import Idealize.ShloMosaic.PureOps.Reduce
import Idealize.ShloMosaic.Lib.Affine
import Idealize.ShloMosaic.Lib.ValueIdx

noncomputable section

open scoped BigOperators

namespace Cert.Bridge.Edge

open Idealize.ShloMosaic Idealize.ShloMosaic.ValueIdx Idealize.ShloMosaic.LibRows

open Cert.KernelIdeal

/-! ## Broadcasts read at an index -/

section Broadcasts
variable {α : Type}

/-- A vector made a column, read at row `e`: the vector at `e`. -/
theorem col_apply (hb : S800000.BroadcastsInDim S800000x1 ![0]) (v : S800000.Idx → α) (e : Fin 800000) (c : Fin 1) :
    broadcastInDim S800000x1 ![0] hb v (ix2 e c) = v (ix1 e) := by
  unfold broadcastInDim
  congr 1
  funext a
  match a with
  | ⟨0, _⟩ => rfl

/-- A vector repeated along the rows of an [800000, 128] array, read at `(e, k)`: the vector at `e`. -/
theorem rowb_apply (hb : S800000.BroadcastsInDim S800000x128 ![0]) (v : S800000.Idx → α) (e : Fin 800000) (k : Fin 128) :
    broadcastInDim S800000x128 ![0] hb v (ix2 e k) = v (ix1 e) := by
  unfold broadcastInDim
  congr 1
  funext a
  match a with
  | ⟨0, _⟩ => rfl

/-- A column repeated along the rows of an [800000, 128] array, read at `(e, k)`: the column at row `e`. -/
theorem colb_apply (hb : S800000x1.BroadcastsInDim S800000x128 ![0, 1]) (v : S800000x1.Idx → α) (e : Fin 800000)
    (k : Fin 128) : broadcastInDim S800000x128 ![0, 1] hb v (ix2 e k) = v (ix2 e 0) := by
  unfold broadcastInDim
  congr 1
  funext a
  match a with
  | ⟨0, _⟩ => rfl
  | ⟨1, _⟩ => rfl

end Broadcasts

/-! ## The wrapped index and the range test at an in-range index -/

/-- An index that is not negative is left alone by the wrap. -/
theorem nrm_apply_of_nonneg (idx : IVec S800000 32) (e : Fin 800000) (c : Fin 1) (h0 : 0 ≤ (idx (ix1 e)).toInt) :
    Hand.nrm idx (ix2 e c) = idx (ix1 e) := by
  unfold Hand.nrm
  rw [col_apply]
  show Scalar.select (IntOp.cmpi .slt (idx (ix1 e)) 0#32) (IntOp.addi (idx (ix1 e)) 50000#32) (idx (ix1 e)) = idx (ix1 e)
  have hlt : IntOp.cmpi .slt (idx (ix1 e)) 0#32 = 0#1 :=
    eq_zero_of_ne_one fun h => by
      have := IntOp.cmpi_slt.mp h
      rw [show (0#32 : BitVec 32).toInt = 0 from by decide] at this
      omega
  rw [hlt, select_zero]

/-- A fold of a commutative associative operation over the one coordinate of an axis of extent 1. -/
theorem fold_fin_one {β : Type} (op : β → β → β) [Std.Commutative op] [Std.Associative op] (b : β) (f : Fin 1 → β) :
    (Finset.univ : Finset (Fin 1)).fold op b f = op (f 0) b := by
  rw [show (Finset.univ : Finset (Fin 1)) = {0} from rfl]
  exact Finset.fold_singleton

/-- At an index in [0, 50000) the range test of the guarded row read holds: the wrapped index is the index, it is
    at least 0 and at most 49999, and the conjunction over the unit axis is that one bit. -/
theorem inRange_apply (idx : IVec S800000 32) (e : Fin 800000) (h0 : 0 ≤ (idx (ix1 e)).toInt)
    (h1 : (idx (ix1 e)).toInt < 50000) : Hand.inRange idx (ix1 e) = 1#1 := by
  unfold Hand.inRange
  rw [Host.reduce_eq_fold_single IntOp.andi _ _ Facts₀.reducesTo_S800000x1_S800000_d1
    (by decide : S800000x1.Reduces [1] S800000) Facts₀.h_S_ (ix1 e)]
  refine (fold_fin_one IntOp.andi _ _).trans ?_
  rw [IntOp.andi_eq_one]
  refine ⟨?_, rfl⟩
  have hl : (by decide : S800000x1.Reduces [1] S800000).lift (ix1 e) (0 : Fin 1) = ix2 e 0 := by
    funext a
    refine Fin.ext ?_
    match a with
    | ⟨0, _⟩ => rfl
    | ⟨1, _⟩ => rfl
  show andi _ _ ((by decide : S800000x1.Reduces [1] S800000).lift (ix1 e) (0 : Fin 1)) = 1#1
  rw [hl]
  show IntOp.andi (IntOp.cmpi .sge (Hand.nrm idx (ix2 e 0)) 0#32) (IntOp.cmpi .sle (Hand.nrm idx (ix2 e 0)) 49999#32) = 1#1
  rw [nrm_apply_of_nonneg idx e 0 h0, IntOp.andi_eq_one, IntOp.cmpi_sge, IntOp.cmpi_sle,
    show (0#32 : BitVec 32).toInt = 0 from by decide, show (49999#32 : BitVec 32).toInt = 49999 from by decide]
  omega

/-! ## The guarded row read at an in-range index -/

/-- At an index in [0, 50000) the guarded row read is the plain row read. -/
theorem take_apply_of_inRange {F : FTy → Type} [FloatOps F] (h : FVec F S50000x128 .f32) (idx : IVec S800000 32)
    (e : Fin 800000) (k : Fin 128) (h0 : 0 ≤ (idx (ix1 e)).toInt) (h1 : (idx (ix1 e)).toInt < 50000) :
    Hand.take h idx (ix2 e k) = Hand.rows h idx (ix2 e k) := by
  unfold Hand.take
  rw [select_apply, rowb_apply, inRange_apply idx e h0 h1, select_one]

/-- The two programs' plain row reads are one function. -/
theorem rows_eq_gat {F : FTy → Type} [FloatOps F] (h : FVec F S50000x128 .f32) (idx : IVec S800000 32) :
    Hand.rows h idx = Cert.ReferenceIdeal.Hand.gat h idx := rfl

/-! ## Row sums, the rectifier, the messages -/

/-- The row sum of a product at edge `e` depends only on the two rows at `e`. -/
theorem dots_congr_row (a b a' b' : FVec Ideal S800000x128 .f32) (e : Fin 800000)
    (ha : ∀ k : Fin 128, a (ix2 e k) = a' (ix2 e k)) (hb : ∀ k : Fin 128, b (ix2 e k) = b' (ix2 e k)) :
    Hand.dots a b (ix1 e) = Hand.dots a' b' (ix1 e) := by
  unfold Hand.dots Host.reduceAdd
  rw [Ideal.hostReduceAdd_def, Ideal.hostReduceAdd_def,
    Ideal.hostReduceAdd_single Facts₀.reducesTo_S800000x128_S800000_d1 (by decide : S800000x128.Reduces [1] S800000),
    Ideal.hostReduceAdd_single Facts₀.reducesTo_S800000x128_S800000_d1 (by decide : S800000x128.Reduces [1] S800000)]
  congr 1
  refine Finset.sum_congr rfl fun k _ => ?_
  have hl : (by decide : S800000x128.Reduces [1] S800000).lift (ix1 e) k = ix2 e k := by
    funext c
    refine Fin.ext ?_
    match c with
    | ⟨0, _⟩ => rfl
    | ⟨1, _⟩ => rfl
  rw [hl]
  exact congrArg₂ (· * ·) (ha k) (hb k)

/-- The rectifier is pointwise. -/
theorem leaky_congr (v v' : FVec Ideal S800000 .f32) (s : FVec Ideal S_ .f32) (i : S800000.Idx) (h : v i = v' i) :
    Hand.leaky v s i = Hand.leaky v' s i := by
  unfold Hand.leaky
  simp only [select_apply, cmpf_apply, mulf_apply, h]

/-- The reference's score is the kernel program's rectifier, at the reference's slope constant, of the kernel
    program's row sum. -/
theorem score_eq (hl hr : FVec Ideal S50000x128 .f32) (src dst : IVec S800000 32) :
    Cert.ReferenceIdeal.Hand.score hl hr src dst
      = Hand.leaky (Hand.dots (Cert.ReferenceIdeal.Hand.gat hl src) (Cert.ReferenceIdeal.Hand.gat hr dst))
          (constant (F := Ideal) S_ .f32 0x3E4CCCCD#32) := rfl

/-! ## The tails -/

/-- Where every destination index is in range, the kernel program's tail (guarded row reads, row sums, rectifier,
    messages, accumulation by source row) is the reference's result as a function of the three tables and the two
    index vectors. -/
theorem tail_eq_out (comb hl hr : FVec Ideal Cert.KernelIdeal.S50000x128 .f32) (src dst : IVec Cert.KernelIdeal.S800000 32)
    (hdst : ∀ e : Fin 800000, 0 ≤ (dst (ix1 e)).toInt ∧ (dst (ix1 e)).toInt < 50000) :
    Cert.KernelIdeal.Hand.agg src (Cert.KernelIdeal.Hand.msgs
        (Cert.KernelIdeal.Hand.leaky (Cert.KernelIdeal.Hand.dots (Cert.KernelIdeal.Hand.take hl src) (Cert.KernelIdeal.Hand.take hr dst))
          (constant (F := Ideal) Cert.KernelIdeal.S_ .f32 0x3E4CCCCD#32))
        (Cert.KernelIdeal.Hand.take comb dst))
      = Cert.ReferenceIdeal.Hand.out comb hl hr src dst := by
  unfold Hand.agg Cert.ReferenceIdeal.Hand.out
  refine scatterAdd_rows_congr (N := 50000) (D := 128) (E := 800000) (w := 32)
    Facts₀.scatter_S50000x128_S800000x1_S800000x128_1_0_0_1_wf _ _ _ _ ?_
  intro e h0 h1 k
  rw [col_apply] at h0 h1
  -- the three guarded reads at edge e are the plain reads
  have tl : ∀ k : Fin 128, Hand.take hl src (ix2 e k) = Cert.ReferenceIdeal.Hand.gat hl src (ix2 e k) :=
    fun k => take_apply_of_inRange hl src e k h0 h1
  have tr : ∀ k : Fin 128, Hand.take hr dst (ix2 e k) = Cert.ReferenceIdeal.Hand.gat hr dst (ix2 e k) :=
    fun k => take_apply_of_inRange hr dst e k (hdst e).1 (hdst e).2
  have tc : Hand.take comb dst (ix2 e k) = Cert.ReferenceIdeal.Hand.gat comb dst (ix2 e k) :=
    take_apply_of_inRange comb dst e k (hdst e).1 (hdst e).2
  unfold Hand.msgs Cert.ReferenceIdeal.Hand.msgs
  rw [mulf_apply, mulf_apply, colb_apply, colb_apply, col_apply, col_apply, tc, score_eq]
  rw [leaky_congr _ _ _ (ix1 e) (dots_congr_row _ _ _ _ e tl tr)]

end Cert.Bridge.Edge

end
-- ==== Proof.lean ====
/-
  The kernel packs the three weight matrices side by side, multiplies once on the matrix unit block
  of 5000 rows by block, cuts the product into its three column bands comb, h_r, h_l, and then runs,
  on the host, per edge e = (src e, dst e):
      score e = leaky (Σ_k h_l[src e, k] · h_r[dst e, k]),   msg e = score e · comb[dst e, ·],
      out r   = Σ_{e : src e = r} msg e.
  The reference multiplies by each matrix separately and runs the same edge chain.

  Over the extended reals the two agree:
    * a block of the product is the contraction of a block of rows of X with the packed weights, the
      blocks tile the product, the change of format of the operands is the identity, and a column
      band of the product with the packed weights is the product with that band's matrix;
    * the kernel's row reads are jnp.take's (a row whose wrapped index is out of range is replaced
      by a fill value), the reference's are plain indexed reads (the read clamps). The destination
      indices are in range by the precondition, so there the two reads are one. A source index may
      be anything: an edge whose source index is out of range contributes to no row of the result
      in either program (the scatter drops it), and on the other edges the reads are again one.
  The three frames: the kernel program's run terminates with its arguments as launched (the region
  by the pipeline's frame rule, the host lines write only their own result buffers), at both
  instances; the reference's run is a straight line of host operations.
-/
import proofs.«409221_j3023656976834_2_alg».proof.Defs
import proofs.«409221_j3023656976834_2_alg».proof.Proof.Gen.Pre_finite_inputs
import proofs.«409221_j3023656976834_2_alg».proof.Proof.KFrame
import proofs.«409221_j3023656976834_2_alg».proof.Proof.KIValue
import proofs.«409221_j3023656976834_2_alg».proof.Proof.KIArr
import proofs.«409221_j3023656976834_2_alg».proof.Proof.RRun
import proofs.«409221_j3023656976834_2_alg».proof.Proof.MatCat
import proofs.«409221_j3023656976834_2_alg».proof.Proof.PreDst
import proofs.«409221_j3023656976834_2_alg».proof.Proof.Edge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Hand.frame m ρ

/-- The common result: the edge chain applied to the whole product X · [W | W_r | W_l]. -/
def result (X : FVec Ideal Cert.KernelIdeal.S50000x128 .f32) (W Wr Wl : FVec Ideal Cert.KernelIdeal.S128x128 .f32)
    (src dst : IVec Cert.KernelIdeal.S800000 32) : FVec Ideal Cert.KernelIdeal.S50000x128 .f32 :=
  Cert.KernelIdeal.Hand.tail (Cert.Bridge.MatCat.ymat X (Cert.Bridge.MatCat.wcat W Wr Wl)) src dst

/-- With the destination indices in range, the reference's result is the common one: band by band the
    product with the packed weights is the product with that band's matrix, and the two edge chains
    agree on every edge the scatter keeps. -/
theorem ref_eq_result (X : FVec Ideal Cert.KernelIdeal.S50000x128 .f32) (W Wr Wl : FVec Ideal Cert.KernelIdeal.S128x128 .f32)
    (src dst : IVec Cert.KernelIdeal.S800000 32)
    (hdst : ∀ e : Fin 800000, 0 ≤ (dst (ValueIdx.ix1 e)).toInt ∧ (dst (ValueIdx.ix1 e)).toInt < 50000) :
    Cert.ReferenceIdeal.Hand.out (Cert.ReferenceIdeal.Hand.dot X W) (Cert.ReferenceIdeal.Hand.dot X Wl)
      (Cert.ReferenceIdeal.Hand.dot X Wr) src dst = result X W Wr Wl src dst := by
  unfold result Cert.KernelIdeal.Hand.tail
  rw [Cert.Bridge.Edge.tail_eq_out _ _ _ _ _ hdst]
  unfold Cert.KernelIdeal.Hand.band0 Cert.KernelIdeal.Hand.band1 Cert.KernelIdeal.Hand.band2
  rw [Cert.Bridge.MatCat.slice_comb, Cert.Bridge.MatCat.slice_hr, Cert.Bridge.MatCat.slice_hl]
  rfl

theorem algebraic : Cert.algebraic_KernelIdeal_ReferenceIdeal := by
  intro m ρ m' ρ' hpre hagree
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Hand.run_value (F := Ideal) m ρ)
    refine ⟨(h c).1.trans ?_, (h c).2⟩
    rw [Cert.KernelIdeal.Hand.final2]
    rfl
  · refine (θ_run Cert.ReferenceIdeal.defs _ _).mono (fun r h c => ?_) (Cert.ReferenceIdeal.Hand.run (F := Ideal) m' ρ')
    refine ⟨(h c).1.trans ?_, (h c).2⟩
    obtain ⟨e0, e1, e2, e3, e4, e5⟩ := hagree c
    rw [e0, e1, e2, e3, e4, e5]
    exact ref_eq_result _ _ _ _ _ _ (Cert.Bridge.PreDst.dst_in_range _ _ _ _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
